-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S6144x2048 : Shape := ⟨2, ![6144, 2048]⟩
abbrev S2048x6144 : Shape := ⟨2, ![2048, 6144]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S6144x2048 : S_.BroadcastsInDim S6144x2048 (![] : Fin 0 → Fin S6144x2048.rank)
  reducesTo_S6144x2048_S_d0_1 : S6144x2048.ReducesTo [0, 1] S_
  bcast_S_S2048x6144 : S_.BroadcastsInDim S2048x6144 (![] : Fin 0 → Fin S2048x6144.rank)
  reducesTo_S2048x6144_S_d0_1 : S2048x6144.ReducesTo [0, 1] S_

variable [Facts]

def fn_part1 {F : FTy → Type} [FloatOps F] (main_v13 : IVec S_ 1) (main_v16 : IVec S2048x6144 1) : IVec S_ 1 :=
  let main_c_5 : IVec S_ 1 := constantI S_ 1 1#1
  let main_v17 : IVec S_ 1 := (fun x v => Host.reduce IntOp.andi x v reducesTo_S2048x6144_S_d0_1 h_S_) main_v16 main_c_5
  let main_v18 : IVec S_ 1 := andi main_v13 main_v17
  main_v18

def fn {F : FTy → Type} [FloatOps F] (main_arg0 : FVec F S4x2048x2048 .f32) (main_arg1 : FVec F S6144x2048 .f32) (main_arg2 : FVec F S6144x2048 .f32) (main_arg3 : FVec F S2048x6144 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S6144x2048 .f32 := Host.absf main_arg1
  let main_cst_0 : FVec F S_ .f32 := constant S_ .f32 0x7F800000#32
  let main_v5 : FVec F S6144x2048 .f32 := broadcastInDim S6144x2048 ![] bcast_S_S6144x2048 main_cst_0
  let main_v6 : IVec S6144x2048 1 := cmpf .olt main_v4 main_v5
  let main_c_1 : IVec S_ 1 := constantI S_ 1 1#1
  let main_v7 : IVec S_ 1 := (fun x v => Host.reduce IntOp.andi x v reducesTo_S6144x2048_S_d0_1 h_S_) main_v6 main_c_1
  let main_v8 : IVec S_ 1 := andi main_v3 main_v7
  let main_v9 : FVec F S6144x2048 .f32 := Host.absf main_arg2
  let main_cst_2 : FVec F S_ .f32 := constant S_ .f32 0x7F800000#32
  let main_v10 : FVec F S6144x2048 .f32 := broadcastInDim S6144x2048 ![] bcast_S_S6144x2048 main_cst_2
  let main_v11 : IVec S6144x2048 1 := cmpf .olt main_v9 main_v10
  let main_c_3 : IVec S_ 1 := constantI S_ 1 1#1
  let main_v12 : IVec S_ 1 := (fun x v => Host.reduce IntOp.andi x v reducesTo_S6144x2048_S_d0_1 h_S_) main_v11 main_c_3
  let main_v13 : IVec S_ 1 := andi main_v8 main_v12
  let main_v14 : FVec F S2048x6144 .f32 := Host.absf main_arg3
  let main_cst_4 : FVec F S_ .f32 := constant S_ .f32 0x7F800000#32
  let main_v15 : FVec F S2048x6144 .f32 := broadcastInDim S2048x6144 ![] bcast_S_S2048x6144 main_cst_4
  let main_v16 : IVec S2048x6144 1 := cmpf .olt main_v14 main_v15
  fn_part1 (F := F) main_v13 main_v16
-- ==== Kernel.lean ====
abbrev S4x2048x2048 : Shape := ⟨3, ![4, 2048, 2048]⟩
abbrev S6144x2048 : Shape := ⟨2, ![6144, 2048]⟩
abbrev S2048x6144 : Shape := ⟨2, ![2048, 6144]⟩
abbrev S8192x2048 : Shape := ⟨2, ![8192, 2048]⟩
abbrev S8192x6144 : Shape := ⟨2, ![8192, 6144]⟩
abbrev S256x2048 : Shape := ⟨2, ![256, 2048]⟩
abbrev S512x2048 : Shape := ⟨2, ![512, 2048]⟩
abbrev S256x512 : Shape := ⟨2, ![256, 512]⟩
abbrev S256 : Shape := ⟨1, ![256]⟩
abbrev S256x1 : Shape := ⟨2, ![256, 1]⟩
abbrev S512 : Shape := ⟨1, ![512]⟩
abbrev S512x1 : Shape := ⟨2, ![512, 1]⟩
abbrev S2048x512 : Shape := ⟨2, ![2048, 512]⟩
abbrev S128x6144 : Shape := ⟨2, ![128, 6144]⟩
abbrev S256x6144 : Shape := ⟨2, ![256, 6144]⟩
abbrev S128x256 : Shape := ⟨2, ![128, 256]⟩
abbrev S128 : Shape := ⟨1, ![128]⟩
abbrev S128x1 : Shape := ⟨2, ![128, 1]⟩
abbrev S6144x256 : Shape := ⟨2, ![6144, 256]⟩

abbrev nBuf : Space → Nat
  | .hbm => 8
  | .vmem => 14
  | .smem => 0
  | _ => 0

abbrev bufTy : (tb : Table) → Fin (tcTables nBuf tb) → BufTy
  | .hbm, ⟨0, _⟩ => ⟨S4x2048x2048, .f32⟩
  | .hbm, ⟨1, _⟩ => ⟨S6144x2048, .f32⟩
  | .hbm, ⟨2, _⟩ => ⟨S6144x2048, .f32⟩
  | .hbm, ⟨3, _⟩ => ⟨S2048x6144, .f32⟩
  | .hbm, ⟨4, _⟩ => ⟨S8192x2048, .f32⟩
  | .hbm, ⟨5, _⟩ => ⟨S8192x6144, .bf16⟩
  | .hbm, ⟨6, _⟩ => ⟨S8192x2048, .f32⟩
  | .hbm, ⟨7, _⟩ => ⟨S4x2048x2048, .f32⟩
  | .local _ .vmem, ⟨0, _⟩ => ⟨S256x2048, .f32⟩
  | .local _ .vmem, ⟨1, _⟩ => ⟨S256x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S256x512, .bf16⟩
  | .local _ .vmem, ⟨7, _⟩ => ⟨S256x512, .bf16⟩
  | .local _ .vmem, ⟨8, _⟩ => ⟨S128x6144, .bf16⟩
  | .local _ .vmem, ⟨9, _⟩ => ⟨S128x6144, .bf16⟩
  | .local _ .vmem, ⟨10, _⟩ => ⟨S256x6144, .f32⟩
  | .local _ .vmem, ⟨11, _⟩ => ⟨S256x6144, .f32⟩
  | .local _ .vmem, ⟨12, _⟩ => ⟨S128x256, .f32⟩
  | .local _ .vmem, ⟨13, _⟩ => ⟨S128x256, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![12, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 64], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S128x6144 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S256x6144 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S128x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S4x2048x2048_S8192x2048 : S4x2048x2048.ShapeCasts S8192x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  reduces_S256x2048_S256 : S256x2048.Reduces [1] S256
  shapeCasts_S256_S256x1 : S256.ShapeCasts S256x1
  broadcasts_S256x1_S256x2048 : S256x1.Broadcasts S256x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  broadcasts_S512x1_S512x2048 : S512x1.Broadcasts S512x2048
  transposes_S512x2048_p1_0_S2048x512 : S512x2048.Transposes [1, 0] S2048x512
  inb_S256x512_S256x512_0_0 : ∀ a, (![0, 0] : Fin 2 → Nat) a + S256x512.size a ≤ S256x512.size a
  h_S256x512 : 0 < S256x512.numel
  packedbf16_S256x512_S256x512_0_0 : (Rect.unit (s := S256x512) ![0, 0] S256x512.size inb_S256x512_S256x512_0_0).PackedRows (EltTy.packing .bf16)
  inb_S128x6144_S128x6144_0_0 : ∀ a, (![0, 0] : Fin 2 → Nat) a + S128x6144.size a ≤ S128x6144.size a
  h_S128x6144 : 0 < S128x6144.numel
  shapeCasts_S128x6144_S128x6144 : S128x6144.ShapeCasts S128x6144
  reduces_S128x6144_S128 : S128x6144.Reduces [1] S128
  shapeCasts_S128_S128x1 : S128.ShapeCasts S128x1
  broadcasts_S128x1_S128x6144 : S128x1.Broadcasts S128x6144
  inb_S256x6144_S256x6144_0_0 : ∀ a, (![0, 0] : Fin 2 → Nat) a + S256x6144.size a ≤ S256x6144.size a
  h_S256x6144 : 0 < S256x6144.numel
  reduces_S256x6144_S256 : S256x6144.Reduces [1] S256
  broadcasts_S256x1_S256x6144 : S256x1.Broadcasts S256x6144
  transposes_S256x6144_p1_0_S6144x256 : S256x6144.Transposes [1, 0] S6144x256
  inb_S128x256_S128x256_0_0 : ∀ a, (![0, 0] : Fin 2 → Nat) a + S128x256.size a ≤ S128x256.size a
  h_S128x256 : 0 < S128x256.numel
  shapeCasts_S8192x2048_S4x2048x2048 : S8192x2048.ShapeCasts S4x2048x2048
  dot_S256x2048_S2048x512_S256x512_1_0_0_1_n_n_wf : DotDims.WF S256x2048 S2048x512 S256x512 [1] [0] [0] [1] [] []
  dot_S128x6144_S6144x256_S128x256_1_0_0_1_n_n_wf : DotDims.WF S128x6144 S6144x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S6144x2048.size a
  hwx0_1 : ∀ i : grid0.Coords, EltTy.bits .f32 = 32 ∨ (Rect.block (s := S6144x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S6144x2048.size a
  hwx0_2 : ∀ i : grid0.Coords, EltTy.bits .f32 = 32 ∨ (Rect.block (s := S6144x2048) S512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S8192x6144.size a
  hwx0_3 : ∀ i : grid0.Coords, EltTy.bits .bf16 = 32 ∨ (Rect.block (s := S8192x6144) S256x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x6144.size a ≤ S8192x6144.size a
  hwx1_0 : ∀ i : grid1.Coords, EltTy.bits .bf16 = 32 ∨ (Rect.block (s := S8192x6144) S128x6144.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x6144.size a ≤ S2048x6144.size a
  hwx1_1 : ∀ i : grid1.Coords, EltTy.bits .f32 = 32 ∨ (Rect.block (s := S2048x6144) S256x6144.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S8192x2048.size a
  hwx1_2 : ∀ i : grid1.Coords, EltTy.bits .f32 = 32 ∨ (Rect.block (s := S8192x2048) S128x256.size (cc1_transform_2 i) (hinb1_2 i)).WholeWords (EltTy.packing .f32)

variable [Facts₀]

def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf
def dot_S128x6144_S6144x256_S128x256_1_0_0_1_n_n : DotDims S128x6144 S6144x256 S128x256 where
  lhsContracting := [1]
  rhsContracting := [0]
  lhsNonContracting := [0]
  rhsNonContracting := [1]
  lhsBatch := []
  rhsBatch := []
  wf := dot_S128x6144_S6144x256_S128x256_1_0_0_1_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S128x6144.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256x6144.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S128x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x2048x2048 : Shape := ⟨3, ![4, 2048, 2048]⟩
abbrev S6144x2048 : Shape := ⟨2, ![6144, 2048]⟩
abbrev S2048x6144 : Shape := ⟨2, ![2048, 6144]⟩
abbrev S_ : Shape := ⟨0, ![]⟩
abbrev S4x2048 : Shape := ⟨2, ![4, 2048]⟩
abbrev S4x2048x1 : Shape := ⟨3, ![4, 2048, 1]⟩
abbrev S6144 : Shape := ⟨1, ![6144]⟩
abbrev S6144x1 : Shape := ⟨2, ![6144, 1]⟩
abbrev S4x2048x6144 : Shape := ⟨3, ![4, 2048, 6144]⟩
abbrev S2048 : Shape := ⟨1, ![2048]⟩
abbrev S2048x1 : Shape := ⟨2, ![2048, 1]⟩

abbrev nBuf : Space → Nat
  | .hbm => 167
  | .vmem => 0
  | .smem => 0
  | _ => 0

abbrev hbmTy0_0 (i : Nat) : BufTy := match i % 128 with
  | 0 => ⟨S4x2048x2048, .f32⟩
  | 1 => ⟨S6144x2048, .f32⟩
  | 2 => ⟨S6144x2048, .f32⟩
  | 3 => ⟨S2048x6144, .f32⟩
  | 4 => ⟨S4x2048x2048, .f32⟩
  | 5 => ⟨S_, .f32⟩
  | 6 => ⟨S4x2048, .f32⟩
  | 7 => ⟨S4x2048x1, .f32⟩
  | 8 => ⟨S_, .f32⟩
  | 9 => ⟨S4x2048x1, .f32⟩
  | 10 => ⟨S4x2048x1, .f32⟩
  | 11 => ⟨S_, .f32⟩
  | 12 => ⟨S4x2048x1, .f32⟩
  | 13 => ⟨S4x2048x1, .f32⟩
  | 14 => ⟨S4x2048x2048, .f32⟩
  | 15 => ⟨S4x2048x2048, .f32⟩
  | 16 => ⟨S4x2048x2048, .f32⟩
  | 17 => ⟨S4x2048x2048, .f32⟩
  | 18 => ⟨S4x2048x2048, .f32⟩
  | 19 => ⟨S_, .f32⟩
  | 20 => ⟨S_, .f32⟩
  | 21 => ⟨S_, .f32⟩
  | 22 => ⟨S4x2048x2048, .f32⟩
  | 23 => ⟨S4x2048x2048, .f32⟩
  | 24 => ⟨S_, .f32⟩
  | 25 => ⟨S4x2048x2048, .f32⟩
  | 26 => ⟨S4x2048x2048, .f32⟩
  | 27 => ⟨S4x2048x2048, .f32⟩
  | 28 => ⟨S4x2048x2048, .f32⟩
  | 29 => ⟨S6144x2048, .f32⟩
  | 30 => ⟨S_, .f32⟩
  | 31 => ⟨S6144, .f32⟩
  | 32 => ⟨S6144x1, .f32⟩
  | 33 => ⟨S_, .f32⟩
  | 34 => ⟨S6144x1, .f32⟩
  | 35 => ⟨S6144x1, .f32⟩
  | 36 => ⟨S_, .f32⟩
  | 37 => ⟨S6144x1, .f32⟩
  | 38 => ⟨S6144x1, .f32⟩
  | 39 => ⟨S6144x2048, .f32⟩
  | 40 => ⟨S6144x2048, .f32⟩
  | 41 => ⟨S6144x2048, .f32⟩
  | 42 => ⟨S6144x2048, .f32⟩
  | 43 => ⟨S6144x2048, .f32⟩
  | 44 => ⟨S_, .f32⟩
  | 45 => ⟨S_, .f32⟩
  | 46 => ⟨S_, .f32⟩
  | 47 => ⟨S6144x2048, .f32⟩
  | 48 => ⟨S6144x2048, .f32⟩
  | 49 => ⟨S_, .f32⟩
  | 50 => ⟨S6144x2048, .f32⟩
  | 51 => ⟨S6144x2048, .f32⟩
  | 52 => ⟨S6144x2048, .f32⟩
  | 53 => ⟨S6144x2048, .f32⟩
  | 54 => ⟨S4x2048x6144, .f32⟩
  | 55 => ⟨S4x2048x6144, .f32⟩
  | 56 => ⟨S4x2048x6144, .f32⟩
  | 57 => ⟨S_, .f32⟩
  | 58 => ⟨S4x2048x6144, .f32⟩
  | 59 => ⟨S4x2048x6144, .f32⟩
  | 60 => ⟨S_, .f32⟩
  | 61 => ⟨S4x2048x6144, .f32⟩
  | 62 => ⟨S4x2048x6144, .f32⟩
  | 63 => ⟨S4x2048x6144, .f32⟩
  | 64 => ⟨S4x2048x2048, .f32⟩
  | 65 => ⟨S_, .f32⟩
  | 66 => ⟨S4x2048, .f32⟩
  | 67 => ⟨S4x2048x1, .f32⟩
  | 68 => ⟨S_, .f32⟩
  | 69 => ⟨S4x2048x1, .f32⟩
  | 70 => ⟨S4x2048x1, .f32⟩
  | 71 => ⟨S_, .f32⟩
  | 72 => ⟨S4x2048x1, .f32⟩
  | 73 => ⟨S4x2048x1, .f32⟩
  | 74 => ⟨S4x2048x2048, .f32⟩
  | 75 => ⟨S4x2048x2048, .f32⟩
  | 76 => ⟨S4x2048x2048, .f32⟩
  | 77 => ⟨S4x2048x2048, .f32⟩
  | 78 => ⟨S4x2048x2048, .f32⟩
  | 79 => ⟨S_, .f32⟩
  | 80 => ⟨S_, .f32⟩
  | 81 => ⟨S_, .f32⟩
  | 82 => ⟨S4x2048x2048, .f32⟩
  | 83 => ⟨S4x2048x2048, .f32⟩
  | 84 => ⟨S_, .f32⟩
  | 85 => ⟨S4x2048x2048, .f32⟩
  | 86 => ⟨S4x2048x2048, .f32⟩
  | 87 => ⟨S4x2048x2048, .f32⟩
  | 88 => ⟨S4x2048x2048, .f32⟩
  | 89 => ⟨S6144x2048, .f32⟩
  | 90 => ⟨S_, .f32⟩
  | 91 => ⟨S6144, .f32⟩
  | 92 => ⟨S6144x1, .f32⟩
  | 93 => ⟨S_, .f32⟩
  | 94 => ⟨S6144x1, .f32⟩
  | 95 => ⟨S6144x1, .f32⟩
  | 96 => ⟨S_, .f32⟩
  | 97 => ⟨S6144x1, .f32⟩
  | 98 => ⟨S6144x1, .f32⟩
  | 99 => ⟨S6144x2048, .f32⟩
  | 100 => ⟨S6144x2048, .f32⟩
  | 101 => ⟨S6144x2048, .f32⟩
  | 102 => ⟨S6144x2048, .f32⟩
  | 103 => ⟨S6144x2048, .f32⟩
  | 104 => ⟨S_, .f32⟩
  | 105 => ⟨S_, .f32⟩
  | 106 => ⟨S_, .f32⟩
  | 107 => ⟨S6144x2048, .f32⟩
  | 108 => ⟨S6144x2048, .f32⟩
  | 109 => ⟨S_, .f32⟩
  | 110 => ⟨S6144x2048, .f32⟩
  | 111 => ⟨S6144x2048, .f32⟩
  | 112 => ⟨S6144x2048, .f32⟩
  | 113 => ⟨S6144x2048, .f32⟩
  | 114 => ⟨S4x2048x6144, .f32⟩
  | 115 => ⟨S4x2048x6144, .f32⟩
  | 116 => ⟨S4x2048x6144, .f32⟩
  | 117 => ⟨S_, .f32⟩
  | 118 => ⟨S4x2048, .f32⟩
  | 119 => ⟨S4x2048x1, .f32⟩
  | 120 => ⟨S_, .f32⟩
  | 121 => ⟨S4x2048x1, .f32⟩
  | 122 => ⟨S4x2048x1, .f32⟩
  | 123 => ⟨S_, .f32⟩
  | 124 => ⟨S4x2048x1, .f32⟩
  | 125 => ⟨S4x2048x1, .f32⟩
  | 126 => ⟨S4x2048x6144, .f32⟩
  | 127 => ⟨S4x2048x6144, .f32⟩
  | _ => ⟨S4x2048x2048, .f32⟩

abbrev hbmTy0_1 (i : Nat) : BufTy := match i % 128 with
  | 0 => ⟨S4x2048x6144, .f32⟩
  | 1 => ⟨S4x2048x6144, .f32⟩
  | 2 => ⟨S4x2048x6144, .f32⟩
  | 3 => ⟨S_, .f32⟩
  | 4 => ⟨S_, .f32⟩
  | 5 => ⟨S_, .f32⟩
  | 6 => ⟨S4x2048x6144, .f32⟩
  | 7 => ⟨S4x2048x6144, .f32⟩
  | 8 => ⟨S_, .f32⟩
  | 9 => ⟨S4x2048x6144, .f32⟩
  | 10 => ⟨S4x2048x6144, .f32⟩
  | 11 => ⟨S4x2048x6144, .f32⟩
  | 12 => ⟨S4x2048x6144, .f32⟩
  | 13 => ⟨S2048x6144, .f32⟩
  | 14 => ⟨S_, .f32⟩
  | 15 => ⟨S2048, .f32⟩
  | 16 => ⟨S2048x1, .f32⟩
  | 17 => ⟨S_, .f32⟩
  | 18 => ⟨S2048x1, .f32⟩
  | 19 => ⟨S2048x1, .f32⟩
  | 20 => ⟨S_, .f32⟩
  | 21 => ⟨S2048x1, .f32⟩
  | 22 => ⟨S2048x1, .f32⟩
  | 23 => ⟨S2048x6144, .f32⟩
  | 24 => ⟨S2048x6144, .f32⟩
  | 25 => ⟨S2048x6144, .f32⟩
  | 26 => ⟨S2048x6144, .f32⟩
  | 27 => ⟨S2048x6144, .f32⟩
  | 28 => ⟨S_, .f32⟩
  | 29 => ⟨S_, .f32⟩
  | 30 => ⟨S_, .f32⟩
  | 31 => ⟨S2048x6144, .f32⟩
  | 32 => ⟨S2048x6144, .f32⟩
  | 33 => ⟨S_, .f32⟩
  | 34 => ⟨S2048x6144, .f32⟩
  | 35 => ⟨S2048x6144, .f32⟩
  | 36 => ⟨S2048x6144, .f32⟩
  | 37 => ⟨S2048x6144, .f32⟩
  | 38 => ⟨S4x2048x2048, .f32⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_cst_3 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_cst_6 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_cst_8 : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_call3_v3 : Ref sig .tc := ⟨.hbm, 49, rfl⟩
abbrev main_call3_v4 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call4_v0 : Ref sig .tc := ⟨.hbm, 55, rfl⟩
abbrev main_call4_v1 : Ref sig .tc := ⟨.hbm, 56, rfl⟩
abbrev main_call4_cst : Ref sig .tc := ⟨.hbm, 57, rfl⟩
abbrev main_call4_v2 : Ref sig .tc := ⟨.hbm, 58, rfl⟩
abbrev main_call4_v3 : Ref sig .tc := ⟨.hbm, 59, rfl⟩
abbrev main_call4_cst_0 : Ref sig .tc := ⟨.hbm, 60, rfl⟩
abbrev main_call4_v4 : Ref sig .tc := ⟨.hbm, 61, rfl⟩
abbrev main_call4_v5 : Ref sig .tc := ⟨.hbm, 62, rfl⟩
abbrev main_v31 : Ref sig .tc := ⟨.hbm, 63, rfl⟩
abbrev main_v32 : Ref sig .tc := ⟨.hbm, 64, rfl⟩
abbrev main_cst_9 : Ref sig .tc := ⟨.hbm, 65, rfl⟩
abbrev main_v33 : Ref sig .tc := ⟨.hbm, 66, rfl⟩
abbrev main_v34 : Ref sig .tc := ⟨.hbm, 67, rfl⟩
abbrev main_cst_10 : Ref sig .tc := ⟨.hbm, 68, rfl⟩
abbrev main_v35 : Ref sig .tc := ⟨.hbm, 69, rfl⟩
abbrev main_v36 : Ref sig .tc := ⟨.hbm, 70, rfl⟩
abbrev main_cst_11 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_12 : Ref sig .tc := ⟨.hbm, 79, rfl⟩
abbrev main_cst_13 : Ref sig .tc := ⟨.hbm, 80, rfl⟩
abbrev main_call6_v0 : Ref sig .tc := ⟨.hbm, 81, rfl⟩
abbrev main_call6_v1 : Ref sig .tc := ⟨.hbm, 82, rfl⟩
abbrev main_call6_v2 : Ref sig .tc := ⟨.hbm, 83, rfl⟩
abbrev main_call6_v3 : Ref sig .tc := ⟨.hbm, 84, rfl⟩
abbrev main_call6_v4 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_cst_14 : Ref sig .tc := ⟨.hbm, 90, rfl⟩
abbrev main_v48 : Ref sig .tc := ⟨.hbm, 91, rfl⟩
abbrev main_v49 : Ref sig .tc := ⟨.hbm, 92, rfl⟩
abbrev main_cst_15 : Ref sig .tc := ⟨.hbm, 93, rfl⟩
abbrev main_v50 : Ref sig .tc := ⟨.hbm, 94, rfl⟩
abbrev main_v51 : Ref sig .tc := ⟨.hbm, 95, rfl⟩
abbrev main_cst_16 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_cst_17 : Ref sig .tc := ⟨.hbm, 104, rfl⟩
abbrev main_cst_18 : Ref sig .tc := ⟨.hbm, 105, rfl⟩
abbrev main_call8_v0 : Ref sig .tc := ⟨.hbm, 106, rfl⟩
abbrev main_call8_v1 : Ref sig .tc := ⟨.hbm, 107, rfl⟩
abbrev main_call8_v2 : Ref sig .tc := ⟨.hbm, 108, rfl⟩
abbrev main_call8_v3 : Ref sig .tc := ⟨.hbm, 109, rfl⟩
abbrev main_call8_v4 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_cst_19 : Ref sig .tc := ⟨.hbm, 117, rfl⟩
abbrev main_v65 : Ref sig .tc := ⟨.hbm, 118, rfl⟩
abbrev main_v66 : Ref sig .tc := ⟨.hbm, 119, rfl⟩
abbrev main_cst_20 : Ref sig .tc := ⟨.hbm, 120, rfl⟩
abbrev main_v67 : Ref sig .tc := ⟨.hbm, 121, rfl⟩
abbrev main_v68 : Ref sig .tc := ⟨.hbm, 122, rfl⟩
abbrev main_cst_21 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_cst_22 : Ref sig .tc := ⟨.hbm, 131, rfl⟩
abbrev main_cst_23 : Ref sig .tc := ⟨.hbm, 132, rfl⟩
abbrev main_call10_v0 : Ref sig .tc := ⟨.hbm, 133, rfl⟩
abbrev main_call10_v1 : Ref sig .tc := ⟨.hbm, 134, rfl⟩
abbrev main_call10_v2 : Ref sig .tc := ⟨.hbm, 135, rfl⟩
abbrev main_call10_v3 : Ref sig .tc := ⟨.hbm, 136, rfl⟩
abbrev main_call10_v4 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_cst_24 : Ref sig .tc := ⟨.hbm, 142, rfl⟩
abbrev main_v80 : Ref sig .tc := ⟨.hbm, 143, rfl⟩
abbrev main_v81 : Ref sig .tc := ⟨.hbm, 144, rfl⟩
abbrev main_cst_25 : Ref sig .tc := ⟨.hbm, 145, rfl⟩
abbrev main_v82 : Ref sig .tc := ⟨.hbm, 146, rfl⟩
abbrev main_v83 : Ref sig .tc := ⟨.hbm, 147, rfl⟩
abbrev main_cst_26 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_cst_27 : Ref sig .tc := ⟨.hbm, 156, rfl⟩
abbrev main_cst_28 : Ref sig .tc := ⟨.hbm, 157, rfl⟩
abbrev main_call12_v0 : Ref sig .tc := ⟨.hbm, 158, rfl⟩
abbrev main_call12_v1 : Ref sig .tc := ⟨.hbm, 159, rfl⟩
abbrev main_call12_v2 : Ref sig .tc := ⟨.hbm, 160, rfl⟩
abbrev main_call12_v3 : Ref sig .tc := ⟨.hbm, 161, rfl⟩
abbrev main_call12_v4 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩

abbrev nD : Nat := 1
abbrev τ : Topo := Topo.v7x

variable {F : FTy → Type} [FloatOps F]

class Facts₀ : Prop where
  reducesTo_S4x2048x2048_S4x2048_d2 : S4x2048x2048.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x2048_0_1_2 : S4x2048x1.BroadcastsInDim S4x2048x2048 (![0, 1, 2] : Fin 3 → Fin S4x2048x2048.rank)
  bcast_S_S4x2048x2048 : S_.BroadcastsInDim S4x2048x2048 (![] : Fin 0 → Fin S4x2048x2048.rank)
  reducesTo_S6144x2048_S6144_d1 : S6144x2048.ReducesTo [1] S6144
  bcast_S6144_S6144x1_0 : S6144.BroadcastsInDim S6144x1 (![0] : Fin 1 → Fin S6144x1.rank)
  bcast_S_S6144x1 : S_.BroadcastsInDim S6144x1 (![] : Fin 0 → Fin S6144x1.rank)
  bcast_S6144x1_S6144x2048_0_1 : S6144x1.BroadcastsInDim S6144x2048 (![0, 1] : Fin 2 → Fin S6144x2048.rank)
  bcast_S_S6144x2048 : S_.BroadcastsInDim S6144x2048 (![] : Fin 0 → Fin S6144x2048.rank)
  bcast_S_S4x2048x6144 : S_.BroadcastsInDim S4x2048x6144 (![] : Fin 0 → Fin S4x2048x6144.rank)
  reducesTo_S4x2048x6144_S4x2048_d2 : S4x2048x6144.ReducesTo [2] S4x2048
  bcast_S4x2048x1_S4x2048x6144_0_1_2 : S4x2048x1.BroadcastsInDim S4x2048x6144 (![0, 1, 2] : Fin 3 → Fin S4x2048x6144.rank)
  reducesTo_S2048x6144_S2048_d1 : S2048x6144.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x6144_0_1 : S2048x1.BroadcastsInDim S2048x6144 (![0, 1] : Fin 2 → Fin S2048x6144.rank)
  bcast_S_S2048x6144 : S_.BroadcastsInDim S2048x6144 (![] : Fin 0 → Fin S2048x6144.rank)
  dot_S4x2048x2048_S6144x2048_S4x2048x6144_2_1_01_0_n_n_wf : DotDims.WF S4x2048x2048 S6144x2048 S4x2048x6144 [2] [1] [0, 1] [0] [] []
  dot_S4x2048x6144_S2048x6144_S4x2048x2048_2_1_01_0_n_n_wf : DotDims.WF S4x2048x6144 S2048x6144 S4x2048x2048 [2] [1] [0, 1] [0] [] []

variable [Facts₀]

def dot_S4x2048x2048_S6144x2048_S4x2048x6144_2_1_01_0_n_n : DotDims S4x2048x2048 S6144x2048 S4x2048x6144 where
  lhsContracting := [2]
  rhsContracting := [1]
  lhsNonContracting := [0, 1]
  rhsNonContracting := [0]
  lhsBatch := []
  rhsBatch := []
  wf := dot_S4x2048x2048_S6144x2048_S4x2048x6144_2_1_01_0_n_n_wf
def dot_S4x2048x6144_S2048x6144_S4x2048x2048_2_1_01_0_n_n : DotDims S4x2048x6144 S2048x6144 S4x2048x2048 where
  lhsContracting := [2]
  rhsContracting := [1]
  lhsNonContracting := [0, 1]
  rhsNonContracting := [0]
  lhsBatch := []
  rhsBatch := []
  wf := dot_S4x2048x6144_S2048x6144_S4x2048x2048_2_1_01_0_n_n_wf

class Facts : Prop extends Facts₀ where

variable [Facts]
-- ==== Proof.QuantLaw.lean ====
/-
  The symmetric eight-bit quantisation of a row, on the extended reals, in the two spellings the two programs use,
  and the layer built from it.

  A row `v` has the scale `s = max (maxₖ |v k| / 127) ε`; its quantised entry is `clip (round (v k / s)) · s` with
  `clip u = min 127 (max (-127) u)` and `round` the nearest integer, ties to even.  One program writes the rounding as
  `round u`; the other as `u + (round u - u)`, which is the same number exactly when `u` is a real number (at an
  infinite `u` the difference `round u - u` is not the real it is at every finite `u`).  So the two spellings agree on
  rows of real numbers, and every stage of the layer keeps its values real: a scale is a positive real, a clipped value
  lies in [-127, 127], a finite sum of products of reals is real, and `g · 1/(1 + e^{-g})` is real at a real `g`.
-/
import Idealize.ShloMosaic.PureOps.Ideal
import Idealize.ShloMosaic.PureOps.Ideal.Laws

noncomputable section

open scoped BigOperators

namespace Cert.QuantLaw

open Idealize.ShloMosaic

/-- An extended real that is a real number. -/
def IsReal (x : EReal) : Prop := ∃ r : ℝ, x = (r : EReal)

/-- The five single-precision words the programs spell: -∞, 127, -127, the floor ε of a scale, and 1. -/
abbrev cNegInf : EReal := Ideal.ofBits .f32 0xFF800000#32
abbrev c127 : EReal := Ideal.ofBits .f32 0x42FE0000#32
abbrev cNeg127 : EReal := Ideal.ofBits .f32 0xC2FE0000#32
abbrev cEps : EReal := Ideal.ofBits .f32 0x322BCC77#32
abbrev cOne : EReal := Ideal.ofBits .f32 0x3F800000#32

/-- The largest magnitude of a row, folded from -∞. -/
def rowMax {n : ℕ} (v : Fin n → EReal) : EReal :=
  (Finset.univ : Finset (Fin n)).fold max cNegInf (fun k => max (v k) (-(v k)))

/-- The row's scale: its largest magnitude over 127, floored at ε. -/
def scale {n : ℕ} (v : Fin n → EReal) : EReal := max (Ideal.div (rowMax v) c127) cEps

/-- Clipping to [-127, 127]. -/
def clip (u : EReal) : EReal := min c127 (max cNeg127 u)

/-- The nearest integer, ties to even. -/
def rnd (u : EReal) : EReal := Ideal.liftRound Ideal.roundHalfEven u

/-- A row's quantised entry, the rounding written `round u`. -/
def q {n : ℕ} (v : Fin n → EReal) (k : Fin n) : EReal :=
  clip (rnd (Ideal.div (v k) (scale v))) * scale v

/-- The same entry with the rounding written `u + (round u - u)`. -/
def qste {n : ℕ} (v : Fin n → EReal) (k : Fin n) : EReal :=
  clip (Ideal.div (v k) (scale v) + (rnd (Ideal.div (v k) (scale v)) - Ideal.div (v k) (scale v))) * scale v

/-- `g · σ(g)`, the logistic function named. -/
def silu (g : EReal) : EReal := g * Ideal.logistic g

/-- `g · (1 / (1 + e^{-g}))`, the logistic function spelt out. -/
def siluHost (g : EReal) : EReal := g * Ideal.div cOne (cOne + Ideal.exp (-g))

/-- The inner product of two quantised rows. -/
def dotq {n : ℕ} (a b : Fin n → EReal) : EReal := ∑ t : Fin n, q a t * q b t

/-- The same with the second spelling of the rounding. -/
def dotqste {n : ℕ} (a b : Fin n → EReal) : EReal := ∑ t : Fin n, qste a t * qste b t

/-- One hidden entry: the gated product of the two projections of a row. -/
def hidE {n : ℕ} (xr gr ur : Fin n → EReal) : EReal := silu (dotq xr gr) * dotq xr ur

/-- The same in the second spelling. -/
def hidEste {n : ℕ} (xr gr ur : Fin n → EReal) : EReal := siluHost (dotqste xr gr) * dotqste xr ur

/-- One output entry of the layer: the hidden row of a token, quantised, against a quantised row of the last weight. -/
def outE {n k : ℕ} (xr : Fin n → EReal) (wg wu : Fin k → Fin n → EReal) (wd : Fin k → EReal) : EReal :=
  dotq (fun j => hidE xr (wg j) (wu j)) wd

/-- The same in the second spelling. -/
def outEste {n k : ℕ} (xr : Fin n → EReal) (wg wu : Fin k → Fin n → EReal) (wd : Fin k → EReal) : EReal :=
  dotqste (fun j => hidEste xr (wg j) (wu j)) wd

/-! ### Real numbers among the extended reals are closed under the operations used here -/

theorem IsReal.coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

/-- The larger of two reals is one of them. -/
theorem IsReal.max {x y : EReal} (hx : IsReal x) (hy : IsReal y) : IsReal (max x y) := by
  rcases le_total x y with h | h
  · rw [max_eq_right h]; exact hy
  · rw [max_eq_left h]; exact hx

/-- The smaller of two reals is one of them. -/
theorem IsReal.min {x y : EReal} (hx : IsReal x) (hy : IsReal y) : IsReal (min x y) := by
  rcases le_total x y with h | h
  · rw [min_eq_left h]; exact hx
  · rw [min_eq_right h]; exact hy

/-- A finite sum of reals is real: the empty sum is 0, and one more real term keeps it real. -/
theorem sum_real {ι : Type} (s : Finset ι) (f : ι → EReal) (hf : ∀ i ∈ s, IsReal (f i)) :
    IsReal (∑ i ∈ s, f i) := by
  classical
  induction s using Finset.induction_on with
  | empty => exact ⟨0, by simp⟩
  | insert a s ha ih =>
    rw [Finset.sum_insert ha]
    exact (hf a (Finset.mem_insert_self a s)).add (ih (fun i hi => hf i (Finset.mem_insert_of_mem hi)))

/-! ### The five words, as the extended reals they denote -/

/-- Sign 1, exponent all ones, fraction 0: -∞. -/
theorem cNegInf_eq : cNegInf = (⊥ : EReal) := by
  show Ideal.ofBits .f32 0xFF800000#32 = ⊥
  simp [Ideal.ofBits, Ideal.ieee]

/-- Exponent 133, fraction 0x7E0000: (2^23 + 0x7E0000) · 2^(133 - 127 - 23) = 127. -/
theorem c127_eq : c127 = ((127 : ℝ) : EReal) := by
  show Ideal.ofBits .f32 0x42FE0000#32 = _
  simp [Ideal.ofBits, Ideal.ieee, -EReal.coe_mul]; norm_num

/-- The same word with the sign bit set: -127. -/
theorem cNeg127_eq : cNeg127 = ((-127 : ℝ) : EReal) := by
  show Ideal.ofBits .f32 0xC2FE0000#32 = _
  simp [Ideal.ofBits, Ideal.ieee, -EReal.coe_mul]; norm_num

/-- Exponent 127, fraction 0: 2^23 · 2^(-23) = 1. -/
theorem cOne_eq : cOne = (1 : EReal) := by
  show Ideal.ofBits .f32 0x3F800000#32 = _
  simp [Ideal.ofBits, Ideal.ieee, -EReal.coe_mul]; norm_num

/-- A normal word with the sign bit clear: some positive real (its digits do not matter). -/
theorem cEps_pos : ∃ e : ℝ, 0 < e ∧ cEps = (e : EReal) := by
  show ∃ e : ℝ, 0 < e ∧ Ideal.ofBits .f32 0x322BCC77#32 = (e : EReal)
  simp [Ideal.ofBits, Ideal.ieee, -EReal.coe_mul]

/-! ### The scale of a row of reals is a positive real -/

/-- A maximum folded from -∞ over reals is -∞ (no term) or a real (the largest term). -/
theorem fold_max_bot_or_real {ι : Type} [DecidableEq ι] (s : Finset ι) (f : ι → EReal) (hf : ∀ i, IsReal (f i)) :
    s.fold max (⊥ : EReal) f = ⊥ ∨ IsReal (s.fold max (⊥ : EReal) f) := by
  induction s using Finset.induction_on with
  | empty => left; exact Finset.fold_empty
  | insert a s ha ih =>
    right
    rw [Finset.fold_insert ha]
    rcases ih with h | h
    · rw [h, max_bot_right]; exact hf a
    · exact (hf a).max h

theorem rowMax_bot_or_real {n : ℕ} (v : Fin n → EReal) (hv : ∀ k, IsReal (v k)) :
    rowMax v = ⊥ ∨ IsReal (rowMax v) := by
  unfold rowMax
  rw [cNegInf_eq]
  exact fold_max_bot_or_real _ _ (fun k => (hv k).max (hv k).neg)

/-- The scale is max (rowMax v / 127) ε: the quotient is -∞ or a real, so the maximum with the positive real ε
    is a real, and it is at least ε. -/
theorem scale_pos_real {n : ℕ} (v : Fin n → EReal) (hv : ∀ k, IsReal (v k)) :
    ∃ s : ℝ, 0 < s ∧ scale v = (s : EReal) := by
  obtain ⟨e, he0, he⟩ := cEps_pos
  have hdiv : Ideal.div (rowMax v) c127 = ⊥ ∨ IsReal (Ideal.div (rowMax v) c127) := by
    rw [c127_eq, Ideal.div_coe (by norm_num : (127 : ℝ) ≠ 0)]
    rcases rowMax_bot_or_real v hv with h | h
    · left; rw [h]; exact EReal.bot_mul_coe_of_pos (by norm_num)
    · right; exact h.mul (IsReal.coe _)
  have hreal : IsReal (scale v) := by
    unfold scale
    rcases hdiv with h | h
    · rw [h, max_bot_left, he]; exact IsReal.coe e
    · exact h.max ⟨e, he⟩
  obtain ⟨s, hs⟩ := hreal
  refine ⟨s, ?_, hs⟩
  have hle : cEps ≤ scale v := le_max_right _ _
  rw [he, hs] at hle
  exact lt_of_lt_of_le he0 (EReal.coe_le_coe_iff.1 hle)

/-! ### The stages of a quantised entry keep a real real -/

/-- A real over a nonzero real is the real product with the reciprocal. -/
theorem div_real {x : EReal} (hx : IsReal x) {s : ℝ} (hs : s ≠ 0) : IsReal (Ideal.div x (s : EReal)) := by
  rw [Ideal.div_coe hs]; exact hx.mul (IsReal.coe _)

/-- At a real, rounding is the integer nearest it. -/
theorem rnd_coe (r : ℝ) : rnd (r : EReal) = ((Ideal.roundHalfEven r : ℝ) : EReal) := rfl

/-- A clipped real is one of -127, 127 and itself. -/
theorem clip_real {u : EReal} (hu : IsReal u) : IsReal (clip u) := by
  unfold clip
  rw [c127_eq, cNeg127_eq]
  exact (IsReal.coe _).min ((IsReal.coe _).max hu)

/-- On a row of reals the two spellings of a quantised entry are one number, and it is real. -/
theorem qste_eq_q {n : ℕ} (v : Fin n → EReal) (hv : ∀ k, IsReal (v k)) (k : Fin n) : qste v k = q v k := by
  -- the scale is a positive real s and u = v k / s a real, so u + (round u - u) = round u is an identity of reals
  obtain ⟨s, hs0, hs⟩ := scale_pos_real v hv
  obtain ⟨u, hu⟩ := div_real (hv k) hs0.ne'
  unfold qste q
  rw [hs, hu, rnd_coe, ← EReal.coe_sub, ← EReal.coe_add]
  have hring : u + ((Ideal.roundHalfEven u : ℝ) - u) = (Ideal.roundHalfEven u : ℝ) := by ring
  rw [hring]

theorem q_real {n : ℕ} (v : Fin n → EReal) (hv : ∀ k, IsReal (v k)) (k : Fin n) : IsReal (q v k) := by
  obtain ⟨s, hs0, hs⟩ := scale_pos_real v hv
  obtain ⟨u, hu⟩ := div_real (hv k) hs0.ne'
  unfold q
  rw [hs, hu, rnd_coe]
  exact (clip_real (IsReal.coe _)).mul (IsReal.coe _)

/-! ### The layer -/

/-- The inner product of two quantised real rows is a finite sum of products of reals. -/
theorem dotq_real {n : ℕ} (a b : Fin n → EReal) (ha : ∀ k, IsReal (a k)) (hb : ∀ k, IsReal (b k)) :
    IsReal (dotq a b) := by
  unfold dotq
  exact sum_real _ _ (fun t _ => (q_real a ha t).mul (q_real b hb t))

/-- Term by term the two spellings of the inner product agree on real rows. -/
theorem dotqste_eq_dotq {n : ℕ} (a b : Fin n → EReal) (ha : ∀ k, IsReal (a k)) (hb : ∀ k, IsReal (b k)) :
    dotqste a b = dotq a b := by
  unfold dotqste dotq
  exact Finset.sum_congr rfl (fun t _ => by rw [qste_eq_q a ha t, qste_eq_q b hb t])

/-- The logistic function is by definition 1 / (1 + e^{-g}), so the two spellings of the gate are one expression
    once the word for 1 is read as 1; this holds at every g, real or not. -/
theorem siluHost_eq_silu (g : EReal) : siluHost g = silu g := by
  unfold siluHost silu Ideal.logistic
  rw [cOne_eq]

/-- At a real g the gate is g · (1 + e^{-g})⁻¹, a product of reals. -/
theorem silu_real {g : EReal} (hg : IsReal g) : IsReal (silu g) := by
  obtain ⟨r, rfl⟩ := hg
  unfold silu
  rw [Ideal.logistic_coe]
  exact (IsReal.coe _).mul (IsReal.coe _)

theorem hidE_real {n : ℕ} (xr gr ur : Fin n → EReal) (hx : ∀ t, IsReal (xr t)) (hg : ∀ t, IsReal (gr t))
    (hu : ∀ t, IsReal (ur t)) : IsReal (hidE xr gr ur) := by
  unfold hidE
  exact (silu_real (dotq_real xr gr hx hg)).mul (dotq_real xr ur hx hu)

theorem hidEste_eq_hidE {n : ℕ} (xr gr ur : Fin n → EReal) (hx : ∀ t, IsReal (xr t)) (hg : ∀ t, IsReal (gr t))
    (hu : ∀ t, IsReal (ur t)) : hidEste xr gr ur = hidE xr gr ur := by
  unfold hidEste hidE
  rw [siluHost_eq_silu, dotqste_eq_dotq xr gr hx hg, dotqste_eq_dotq xr ur hx hu]

/-- The whole layer: on real inputs the two spellings give one output entry. -/
theorem outEste_eq_outE {n k : ℕ} (xr : Fin n → EReal) (wg wu : Fin k → Fin n → EReal) (wd : Fin k → EReal)
    (hx : ∀ t, IsReal (xr t)) (hg : ∀ j t, IsReal (wg j t)) (hu : ∀ j t, IsReal (wu j t)) (hd : ∀ j, IsReal (wd j)) :
    outEste xr wg wu wd = outE xr wg wu wd := by
  -- the hidden row is the same row of reals in both spellings; then the last inner product agrees on it
  have hrow : (fun j => hidEste xr (wg j) (wu j)) = fun j => hidE xr (wg j) (wu j) :=
    funext (fun j => hidEste_eq_hidE xr (wg j) (wu j) hx (hg j) (hu j))
  unfold outEste outE
  rw [hrow]
  exact dotqste_eq_dotq _ wd (fun j => hidE_real xr (wg j) (wu j) hx (hg j) (hu j)) hd

end Cert.QuantLaw

end
-- ==== Proof.LibPlainDot.lean ====
/-
  General facts about the shapes a row-wise dense layer meets, on the extended reals: a rows-by-columns matrix product
  read at one entry as a sum over the shared axis; a column broadcast across the columns; a bias vector laid along the
  rows.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibPlainDot

open Idealize.ShloMosaic Idealize.ShloMosaic.ValueIdx

/-- The contraction sum of an `M×K` by `K×N` product at entry `(p, j)` is `∑ₖ l(p,k)·r(k,j)`: the one contracted axis
    is re-indexed by its coordinate; the left operand is read at the entry's row and the right at its column (the four
    hypotheses say so of the dimension numbers, coordinate by coordinate). -/
theorem sum_plain {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : (⟨2, ![M, K]⟩ : Shape).Idx → EReal) (r : (⟨2, ![K, N]⟩ : Shape).Idx → EReal) (p : Fin M) (j : Fin N) :
    ∑ q : D.contr.Idx, l (D.lhsIdx (ix2 p j) q) * r (D.rhsIdx (ix2 p j) q) = ∑ k : Fin K, l (ix2 p k) * r (ix2 k j) := by
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A matrix product accumulated into zeros, read at entry `(p, j)`. -/
theorem matmul_plain_apply {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision)
    (l : FVec Ideal ⟨2, ![M, K]⟩ .f32) (r : FVec Ideal ⟨2, ![K, N]⟩ .f32) (p : Fin M) (j : Fin N) :
    FloatOps.matmul D prec l r (constant (F := Ideal) ⟨2, ![M, N]⟩ .f32 0x00000000#32) (ix2 p j)
      = ∑ k : Fin K, l (ix2 p k) * r (ix2 k j) := by
  rw [Ideal.matmul_constant_zero_apply]
  exact sum_plain D hr hs hl0 hl1 hr0 hr1 l r p j

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias vector `[b]` viewed as one row `[1, b]` and laid along `a` rows reads, at `(p, c)`, its entry `c`. -/
theorem bias_row_apply {a b : ℕ} (x : (⟨1, ![b]⟩ : Shape).Idx → α)
    (h : (⟨1, ![b]⟩ : Shape).ShapeCasts ⟨2, ![1, b]⟩) (h' : (⟨2, ![1, b]⟩ : Shape).Broadcasts ⟨2, ![a, b]⟩)
    (p : Fin a) (c : Fin b) :
    broadcastTo ⟨2, ![a, b]⟩ (shapeCast ⟨2, ![1, b]⟩ x h) h' (ix2 p c) = x (ix1 c) := by
  rw [broadcastTo_1b_ab_apply, shapeCast_a_1a_apply]

/-- The word of all zero bits is the real number zero. -/
theorem scalar_zero : (Scalar.ofBits (F := Ideal) .f32 0x00000000#32 : Ideal .f32) = (0 : EReal) :=
  Ideal.ofBits_zero_f32

end Cert.LibPlainDot

end
-- ==== Proof.KBody0.lean ====
/-
  What the first kernel's body leaves in its output block, entry by entry: from a block of 256 token rows and two blocks
  of 512 weight rows (all of full width 2048), entry (p, j) is the gated product of the quantised token row p against
  the quantised rows j of the two weight blocks.
-/
import proofs.«112546_j17025250361715_1_alg».proof.Proof.Gen.KernelIdeal.Frame
import proofs.«112546_j17025250361715_1_alg».proof.Proof.QuantLaw
import proofs.«112546_j17025250361715_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KBody0

open Cert.KernelIdeal Cert.KernelIdeal.Gen Cert.QuantLaw Idealize.ShloMosaic Idealize.ShloMosaic.ValueIdx

/-! ## The operations that are not entrywise, each read at one entry -/

/-- The corner of a whole-block access: both offsets are zero. -/
theorem corner_zero : (![0, 0] : Fin 2 → Nat) = fun _ => 0 := funext fun a => by fin_cases a <;> rfl

/-- A vector `[a]` viewed as a column `[a, 1]` reads, at `(p, 0)`, its entry `p`: both sit at position `p`. -/
theorem column_apply {α : Type} {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h _ _ (by
    rw [Shape.rowMajor_val_two, Shape.rowMajor_val_one]
    show p.val = p.val * 1 + 0
    omega)

/-- The maximum along the rows of an `[a, b]` block, started from -∞, is at row `p` the fold of `max` from -∞ over
    the `b` entries of that row. -/
theorem rowMax_apply {a b : ℕ} (src : FVec Ideal ⟨2, ![a, b]⟩ .f32)
    (h : Shape.Reduces ⟨2, ![a, b]⟩ [1] ⟨1, ![a]⟩) (p : Fin a) :
    multiReduction (F := Ideal) .maximumf [1] ⟨1, ![a]⟩ src 0xFF800000#32 h (.inl rfl) rfl (ix1 p)
      = (Finset.univ : Finset (Fin b)).fold max cNegInf (fun k => src (ix2 p k)) := by
  refine (Ideal.multiReduction_maximumf_single src 0xFF800000#32 h (.inl rfl) rfl (ix1 p)).trans ?_
  refine congrArg (fun f : Fin b → EReal => (Finset.univ : Finset (Fin b)).fold max cNegInf f) ?_
  funext k
  exact congrArg src (funext fun c => Fin.ext (by
    match c with
    | ⟨0, _⟩ => rfl
    | ⟨1, _⟩ => rfl))

/-- A product of an `M×K` block by a `K×N` block, accumulated into zeros, read at entry `(p, j)`: the sum over the shared
    axis, whatever the two operands' formats. -/
theorem matmul_apply {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision)
    (l : FVec Ideal ⟨2, ![M, K]⟩ φ₁) (r : FVec Ideal ⟨2, ![K, N]⟩ φ₂) (p : Fin M) (j : Fin N) :
    FloatOps.matmul D prec l r (constant (F := Ideal) ⟨2, ![M, N]⟩ .f32 0x00000000#32) (ix2 p j)
      = ∑ k : Fin K, l (ix2 p k) * r (ix2 k j) := by
  rw [Ideal.matmul_constant_zero_apply]
  exact Cert.LibPlainDot.sum_plain D hr hs hl0 hl1 hr0 hr1 l r p j

/-! The body's one dot: rows of the left block against columns of the right, axis by axis. -/

theorem dot_lhs_0 (i : S256x512.Idx) (q : dot_S256x2048_S2048x512_S256x512_1_0_0_1_n_n.contr.Idx) :
    (dot_S256x2048_S2048x512_S256x512_1_0_0_1_n_n.lhsIdx i q 0).val = (i 0).val := by
  unfold DotDims.lhsIdx
  rw [dif_neg (show ¬(0 : Fin S256x2048.rank) ∈ dot_S256x2048_S2048x512_S256x512_1_0_0_1_n_n.lhsBatch by decide), dif_pos (show (0 : Fin S256x2048.rank) ∈ dot_S256x2048_S2048x512_S256x512_1_0_0_1_n_n.lhsNonContracting by decide)]
  rfl
theorem dot_lhs_1 (i : S256x512.Idx) (q : dot_S256x2048_S2048x512_S256x512_1_0_0_1_n_n.contr.Idx) :
    (dot_S256x2048_S2048x512_S256x512_1_0_0_1_n_n.lhsIdx i q 1).val = (q ⟨0, by decide⟩).val :=
  dot_S256x2048_S2048x512_S256x512_1_0_0_1_n_n.lhsIdx_val_of_single rfl i q
theorem dot_rhs_0 (i : S256x512.Idx) (q : dot_S256x2048_S2048x512_S256x512_1_0_0_1_n_n.contr.Idx) :
    (dot_S256x2048_S2048x512_S256x512_1_0_0_1_n_n.rhsIdx i q 0).val = (q ⟨0, by decide⟩).val :=
  dot_S256x2048_S2048x512_S256x512_1_0_0_1_n_n.rhsIdx_val_of_single rfl i q
theorem dot_rhs_1 (i : S256x512.Idx) (q : dot_S256x2048_S2048x512_S256x512_1_0_0_1_n_n.contr.Idx) :
    (dot_S256x2048_S2048x512_S256x512_1_0_0_1_n_n.rhsIdx i q 1).val = (i 1).val := by
  unfold DotDims.rhsIdx
  rw [dif_neg (show ¬(1 : Fin S2048x512.rank) ∈ dot_S256x2048_S2048x512_S256x512_1_0_0_1_n_n.rhsBatch by decide), dif_pos (show (1 : Fin S2048x512.rank) ∈ dot_S256x2048_S2048x512_S256x512_1_0_0_1_n_n.rhsNonContracting by decide)]
  rfl

/-- The body's product of a `256×2048` block by a transposed `512×2048` block, into zeros, at `(p, j)`: row `p` of
    the first against row `j` of the second. -/
theorem rows_dot_apply (l : FVec Ideal S256x2048 .bf16) (w : FVec Ideal S512x2048 .bf16) (p : Fin 256) (j : Fin 512) :
    matmul dot_S256x2048_S2048x512_S256x512_1_0_0_1_n_n none l
        (transpose S2048x512 [1, 0] w transposes_S512x2048_p1_0_S2048x512) (constant (F := Ideal) S256x512 .f32 0x00000000#32) (ix2 p j)
      = ∑ k : Fin 2048, l (ix2 p k) * w (ix2 j k) := by
  refine (matmul_apply dot_S256x2048_S2048x512_S256x512_1_0_0_1_n_n rfl rfl dot_lhs_0 dot_lhs_1 dot_rhs_0 dot_rhs_1 none l _ p j).trans ?_
  refine Finset.sum_congr rfl fun k _ => ?_
  rw [transpose_ix2_apply]

/-! ## The quantisation of a block, entry by entry -/

/-- A row's quantised entry, from the row's largest magnitude `mx` and the entry `v`: the scale is
    `max (mx / 127) ε`, the entry `clip (round (v / scale)) · scale`. -/
def quant (mx v : EReal) : EReal :=
  clip (rnd (Ideal.div v (max (Ideal.div mx c127) cEps))) * max (Ideal.div mx c127) cEps

theorem q_eq_quant {n : ℕ} (v : Fin n → EReal) (k : Fin n) : q v k = quant (rowMax v) (v k) := rfl

/-- The entrywise tail of a block's quantisation, from the block `x` and the column `m` of its rows' largest
    magnitudes: divide the column by 127, floor it at ε, spread it along the rows, divide, round, clip, multiply back,
    change the format (no change of value). At `(p, t)` it is `quant` of the column's entry `p` and the block's entry. -/
theorem quant_tail_apply {a b : ℕ} (x : FVec Ideal ⟨2, ![a, b]⟩ .f32) (m : FVec Ideal ⟨2, ![a, 1]⟩ .f32)
    (hb : (⟨2, ![a, 1]⟩ : Shape).Broadcasts ⟨2, ![a, b]⟩) (hlt : FTy.bits .bf16 < FTy.bits .f32) (p : Fin a) (t : Fin b) :
    (truncf .bf16
        (mulf
          (minimumf (broadcast ⟨2, ![a, b]⟩ (Scalar.ofBits (F := Ideal) .f32 0x42FE0000#32))
            (maximumf (broadcast ⟨2, ![a, b]⟩ (Scalar.ofBits (F := Ideal) .f32 0xC2FE0000#32))
              (roundeven (divf x
                (broadcastTo ⟨2, ![a, b]⟩
                  (maximumf (divf m (broadcast ⟨2, ![a, 1]⟩ (Scalar.ofBits (F := Ideal) .f32 0x42FE0000#32)))
                    (broadcast ⟨2, ![a, 1]⟩ (Scalar.ofBits (F := Ideal) .f32 0x322BCC77#32))) hb)))))
          (broadcastTo ⟨2, ![a, b]⟩
            (maximumf (divf m (broadcast ⟨2, ![a, 1]⟩ (Scalar.ofBits (F := Ideal) .f32 0x42FE0000#32)))
              (broadcast ⟨2, ![a, 1]⟩ (Scalar.ofBits (F := Ideal) .f32 0x322BCC77#32))) hb))
        hlt : FVec Ideal ⟨2, ![a, b]⟩ .bf16) (ix2 p t)
      = quant (m (ix2 p (0 : Fin 1))) (x (ix2 p t)) := by
  show min c127 (max cNeg127 (Ideal.liftRound Ideal.roundHalfEven (Ideal.div (x (ix2 p t))
        (broadcastTo ⟨2, ![a, b]⟩
          (maximumf (divf m (broadcast ⟨2, ![a, 1]⟩ (Scalar.ofBits (F := Ideal) .f32 0x42FE0000#32)))
            (broadcast ⟨2, ![a, 1]⟩ (Scalar.ofBits (F := Ideal) .f32 0x322BCC77#32))) hb (ix2 p t)))))
      * (broadcastTo ⟨2, ![a, b]⟩
          (maximumf (divf m (broadcast ⟨2, ![a, 1]⟩ (Scalar.ofBits (F := Ideal) .f32 0x42FE0000#32)))
            (broadcast ⟨2, ![a, 1]⟩ (Scalar.ofBits (F := Ideal) .f32 0x322BCC77#32))) hb (ix2 p t)) = _
  rw [Cert.LibPlainDot.broadcastTo_a1_ab_apply]
  rfl

/-- The column of the rows' largest magnitudes, at row `j`. -/
theorem pay4_apply (x : Vec Ideal S512x2048 .f32) (j : Fin 512) :
    (k0_pay4 (F := Ideal) x : S512x1.Idx → EReal) (ix2 j (0 : Fin 1))
      = rowMax (fun t : Fin 2048 => (x : S512x2048.Idx → EReal) (ix2 j t)) := by
  unfold k0_pay4
  refine (column_apply _ _ j).trans ?_
  refine (rowMax_apply _ _ j).trans ?_
  rfl

/-- The quantised token block, entry by entry. -/
theorem pay2_apply (x : Vec Ideal S256x2048 .f32) (p : Fin 256) (t : Fin 2048) :
    (k0_pay2 (F := Ideal) x : S256x2048.Idx → EReal) (ix2 p t)
      = q (fun t' : Fin 2048 => (x : S256x2048.Idx → EReal) (ix2 p t')) t := by
  unfold k0_pay2
  simp only [shapeCast_self]
  refine (quant_tail_apply (a := 256) (b := 2048) x _ _ _ p t).trans ?_
  rw [q_eq_quant]
  refine congrArg (fun mx => quant mx (x (ix2 p t))) ?_
  refine (column_apply _ _ p).trans ?_
  refine (rowMax_apply _ _ p).trans ?_
  rfl

/-- The first quantised weight block, entry by entry. -/
theorem pay3_apply (x : Vec Ideal S512x2048 .f32) (j : Fin 512) (t : Fin 2048) :
    (k0_pay3 (F := Ideal) x : S512x2048.Idx → EReal) (ix2 j t)
      = q (fun t' : Fin 2048 => (x : S512x2048.Idx → EReal) (ix2 j t')) t := by
  unfold k0_pay3
  refine (quant_tail_apply (a := 512) (b := 2048) x _ _ _ j t).trans ?_
  rw [q_eq_quant]
  refine congrArg (fun mx => quant mx (x (ix2 j t))) ?_
  refine (column_apply _ _ j).trans ?_
  refine (rowMax_apply _ _ j).trans ?_
  rfl

/-! ## The stored block -/

/-- The stored block from its four ingredients (the quantised token block `l`, the first quantised weight block `w`, the
    second weight block `x` and the column `m` of its rows' largest magnitudes), at entry `(p, j)`: the second weight
    block is quantised in place, both products are taken against row `j`, and the first gates the second. -/
theorem pay1_apply (l : FVec Ideal S256x2048 .bf16) (w : FVec Ideal S512x2048 .bf16) (x : Vec Ideal S512x2048 .f32)
    (m : FVec Ideal S512x1 .f32) (p : Fin 256) (j : Fin 512) :
    (k0_pay1 (F := Ideal) l w x m : S256x512.Idx → EReal) (ix2 p j)
      = silu (∑ k : Fin 2048, l (ix2 p k) * w (ix2 j k))
          * ∑ k : Fin 2048, l (ix2 p k) * quant (m (ix2 j (0 : Fin 1))) ((x : S512x2048.Idx → EReal) (ix2 j k)) := by
  unfold k0_pay1
  refine (congrArg₂ (fun g u : EReal => silu g * u) (rows_dot_apply l w p j) (rows_dot_apply l _ p j)).trans ?_
  refine congrArg (fun u : EReal => silu (∑ k : Fin 2048, l (ix2 p k) * w (ix2 j k)) * u) ?_
  refine Finset.sum_congr rfl fun k _ => ?_
  exact congrArg (fun u : EReal => l (ix2 p k) * u) (quant_tail_apply (a := 512) (b := 2048) x m _ _ j k)

/-- Entry (p, j) of the block the first body stores. -/
theorem out0_3_apply (x0 : Vec Ideal S256x2048 .f32) (x1 x2 : Vec Ideal S512x2048 .f32) (p : Fin 256) (j : Fin 512) :
    (out0_3 (F := Ideal) x0 x1 x2 : S256x512.Idx → EReal) (ix2 p j)
      = hidE (fun t : Fin 2048 => (x0 : S256x2048.Idx → EReal) (ix2 p t))
          (fun t : Fin 2048 => (x1 : S512x2048.Idx → EReal) (ix2 j t))
          (fun t : Fin 2048 => (x2 : S512x2048.Idx → EReal) (ix2 j t)) := by
  unfold out0_3
  rw [View.canon_unit_zero corner_zero]
  simp only [View.ld_unit_zero (S := S256x2048) corner_zero, View.ld_unit_zero (S := S512x2048) corner_zero]
  refine (pay1_apply _ _ _ _ p j).trans ?_
  unfold hidE dotq
  refine congrArg₂ (fun g u : EReal => silu g * u) (Finset.sum_congr rfl fun k _ => ?_) (Finset.sum_congr rfl fun k _ => ?_)
  · rw [pay2_apply, pay3_apply]
  · rw [pay2_apply, pay4_apply]
    rfl

end Cert.KBody0

end
-- ==== Proof.KArr0.lean ====
/-
  The hidden array after the first kernel's grid, from whatever contents the kernel finds: the 12 × 32 blocks of 256 × 512
  entries tile the 8192 × 6144 array, block (row block i, column block j) being written at the grid point (j, i); entry
  (n, j) is the gated product of token row n against rows j of the two weights.
-/
import proofs.«112546_j17025250361715_1_alg».proof.Proof.Gen.KernelIdeal.Frame
import proofs.«112546_j17025250361715_1_alg».proof.Proof.QuantLaw
import proofs.«112546_j17025250361715_1_alg».proof.Proof.KBody0
import Idealize.ShloMosaic.Lib.ValueIdx
import Idealize.ShloMosaic.Lib.Pipeline.Value

set_option maxRecDepth 16384

noncomputable section

open scoped BigOperators

namespace Cert.KArr0

open Cert.KernelIdeal Cert.KernelIdeal.Gen Cert.QuantLaw Idealize.ShloMosaic Idealize.ShloMosaic.ValueIdx Idealize.ShloMosaic.TcCoe Idealize.SL.Sem

variable (V : (c : Dev nD) → (b : Ref sig .tc) → Buf (Elt Ideal) ((c : Thread nD τ).loc b))

/-- The four index maps over the grid: the token window's row block is the output's row block, each weight window's row
    block is the output's column block, the inputs' column blocks are 0, and the output's block indices stay in range. -/
theorem idx_facts : ∀ t : Fin cfg0.N,
    win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = win0_3.index t (1 : Fin 2)
    ∧ win0_2.index t (1 : Fin 2) = 0
    ∧ win0_3.index t (0 : Fin 2) ≤ 31
    ∧ win0_3.index t (1 : Fin 2) ≤ 11 :=
  (by decide +kernel : ∀ t : Fin grid0.N, _)

/-- The grid has 12 · 32 points; consecutive points differ in the second coordinate, 32 consecutive ones share the first. -/
theorem gridN : grid0.N = 384 := by decide
theorem stride0 : grid0.stride 0 = 32 := by decide
theorem stride1 : grid0.stride 1 = 1 := by decide

theorem point_lt (t : Fin cfg0.N) : t.val < 384 := lt_of_lt_of_eq t.isLt gridN

/-- The output window's block indices at a grid point, in closed form: the row block is the point's second coordinate,
    the column block its first. -/
theorem out_index (t : Fin cfg0.N) : win0_3.index t (0 : Fin 2) = t.val % 32 ∧ win0_3.index t (1 : Fin 2) = t.val / 32 := by
  have ht := point_lt t
  constructor
  · show (BitVec.ofNat 32 ((grid0.coords t) 1).val).toNat = _
    rw [BitVec.toNat_ofNat]
    show (t.val / grid0.stride 1 % 32) % 2 ^ 32 = _
    rw [stride1]; omega
  · show (BitVec.ofNat 32 ((grid0.coords t) 0).val).toNat = _
    rw [BitVec.toNat_ofNat]
    show (t.val / grid0.stride 0 % 12) % 2 ^ 32 = _
    rw [stride0]; omega

/-- The hidden array as one function of the tokens and the two weights: entry (n, j) is the gated product of token row n
    against rows j of the weights. -/
def hiddenOf (a0 : S8192x2048.Idx → EReal) (a1 a2 : S6144x2048.Idx → EReal) : S8192x6144.Idx → EReal :=
  fun i => hidE (fun t : Fin 2048 => a0 (ix2 (i 0) t)) (fun t : Fin 2048 => a1 (ix2 (i 1) t)) (fun t : Fin 2048 => a2 (ix2 (i 1) t))

/-- The token window's block at a point is rows `256 · (row block) …` of the tokens, all 2048 columns. -/
theorem read_tokens (c : Dev nD) (t : Fin cfg0.N) (x : S256x2048.Idx) (k : S8192x2048.Idx)
    (hk0 : (k 0).val = win0_3.index t (0 : Fin 2) * 256 + (x 0).val) (hk1 : (k 1).val = (x 1).val) :
    (iblk0 V c 0 t : S256x2048.Idx → EReal) x = (V c main_v0 : S8192x2048.Idx → EReal) k := by
  obtain ⟨e0, e1, -⟩ := idx_facts t
  unfold iblk0
  rw [View.read_apply]
  show V c main_v0 _ = V c main_v0 _
  congr 1
  funext a
  apply Fin.ext
  match a with
  | ⟨0, _⟩ => show win0_0.index t (0 : Fin 2) * 256 + 1 * (x 0).val = (k 0).val; rw [e0, hk0]; omega
  | ⟨1, _⟩ => show win0_0.index t (1 : Fin 2) * 2048 + 1 * (x 1).val = (k 1).val; rw [e1, hk1]; omega

/-- The first weight window's block at a point is rows `512 · (column block) …` of the first weight. -/
theorem read_gate (c : Dev nD) (t : Fin cfg0.N) (x : S512x2048.Idx) (k : S6144x2048.Idx)
    (hk0 : (k 0).val = win0_3.index t (1 : Fin 2) * 512 + (x 0).val) (hk1 : (k 1).val = (x 1).val) :
    (iblk0 V c 1 t : S512x2048.Idx → EReal) x = (V c main_arg1 : S6144x2048.Idx → EReal) k := by
  obtain ⟨-, -, e2, e3, -⟩ := idx_facts t
  unfold iblk0
  rw [View.read_apply]
  show V c main_arg1 _ = V c main_arg1 _
  congr 1
  funext a
  apply Fin.ext
  match a with
  | ⟨0, _⟩ => show win0_1.index t (0 : Fin 2) * 512 + 1 * (x 0).val = (k 0).val; rw [e2, hk0]; omega
  | ⟨1, _⟩ => show win0_1.index t (1 : Fin 2) * 2048 + 1 * (x 1).val = (k 1).val; rw [e3, hk1]; omega

/-- The second weight window's block at a point is rows `512 · (column block) …` of the second weight. -/
theorem read_up (c : Dev nD) (t : Fin cfg0.N) (x : S512x2048.Idx) (k : S6144x2048.Idx)
    (hk0 : (k 0).val = win0_3.index t (1 : Fin 2) * 512 + (x 0).val) (hk1 : (k 1).val = (x 1).val) :
    (iblk0 V c 2 t : S512x2048.Idx → EReal) x = (V c main_arg2 : S6144x2048.Idx → EReal) k := by
  obtain ⟨-, -, -, -, e4, e5, -⟩ := idx_facts t
  unfold iblk0
  rw [View.read_apply]
  show V c main_arg2 _ = V c main_arg2 _
  congr 1
  funext a
  apply Fin.ext
  match a with
  | ⟨0, _⟩ => show win0_2.index t (0 : Fin 2) * 512 + 1 * (x 0).val = (k 0).val; rw [e4, hk0]; omega
  | ⟨1, _⟩ => show win0_2.index t (1 : Fin 2) * 2048 + 1 * (x 1).val = (k 1).val; rw [e5, hk1]; omega

/-- Entry (p, q) of what the body leaves at a point, where the output block puts it in the array. -/
theorem block_entry (c : Dev nD) (t : Fin cfg0.N) (p : Fin 256) (q : Fin 512) (i : S8192x6144.Idx)
    (hi0 : (i 0).val = win0_3.index t (0 : Fin 2) * 256 + p.val) (hi1 : (i 1).val = win0_3.index t (1 : Fin 2) * 512 + q.val) :
    (out0_3 (F := Ideal) (iblk0 V c 0 t) (iblk0 V c 1 t) (iblk0 V c 2 t) : S256x512.Idx → EReal) (ix2 p q)
      = hiddenOf (V c main_v0) (V c main_arg1) (V c main_arg2) i := by
  refine (Cert.KBody0.out0_3_apply _ _ _ p q).trans ?_
  have h0 : (fun s : Fin 2048 => (iblk0 V c 0 t : S256x2048.Idx → EReal) (ix2 p s))
      = fun s : Fin 2048 => (V c main_v0 : S8192x2048.Idx → EReal) (ix2 (i 0) s) :=
    funext fun s => read_tokens V c t (ix2 p s) (ix2 (i 0) s) hi0 rfl
  have h1 : (fun s : Fin 2048 => (iblk0 V c 1 t : S512x2048.Idx → EReal) (ix2 q s))
      = fun s : Fin 2048 => (V c main_arg1 : S6144x2048.Idx → EReal) (ix2 (i 1) s) :=
    funext fun s => read_gate V c t (ix2 q s) (ix2 (i 1) s) hi1 rfl
  have h2 : (fun s : Fin 2048 => (iblk0 V c 2 t : S512x2048.Idx → EReal) (ix2 q s))
      = fun s : Fin 2048 => (V c main_arg2 : S6144x2048.Idx → EReal) (ix2 (i 1) s) :=
    funext fun s => read_up V c t (ix2 q s) (ix2 (i 1) s) hi1 rfl
  exact congr (congr (congrArg hidE h0) h1) h2

/-- The same at any index of the block: the array index is block index × block size + the index inside the block. -/
theorem flushed_entry (c : Dev nD) (t : Fin cfg0.N) (y : S256x512.Idx) :
    (out0_3 (F := Ideal) (iblk0 V c 0 t) (iblk0 V c 1 t) (iblk0 V c 2 t) : S256x512.Idx → EReal) y
      = hiddenOf (V c main_v0) (V c main_arg1) (V c main_arg2) (((cfg0.win 3).blk t).view.emb y) := by
  obtain ⟨p, q, rfl⟩ : ∃ (p : Fin 256) (q : Fin 512), y = ix2 p q := ⟨y 0, y 1, eq_ix2 y⟩
  refine block_entry V c t p q _ ?_ ?_
  · show win0_3.index t (0 : Fin 2) * 256 + 1 * p.val = _; omega
  · show win0_3.index t (1 : Fin 2) * 512 + 1 * q.val = _; omega

/-- What a grid point writes back is its block of the hidden function of the arrays the kernel finds. -/
theorem flushed_eq (c : Dev nD) (t : Fin cfg0.N) :
    (dat0 (F := Ideal) V c).flushed 3 t
      = ((cfg0.win 3).blk t).view.read (Elt Ideal) (hiddenOf (V c main_v0) (V c main_arg1) (V c main_arg2)) := by
  show (cfg0.win 3).cut (grid0.coords t) ((dat0 V c).after 3 t) = _
  rw [after0_3]
  funext y
  exact flushed_entry V c t y

/-- An index of the array is in a point's block iff each coordinate is in the block's range on its axis. -/
theorem mem_blk (t : Fin cfg0.N) (i : S8192x6144.Idx) :
    i ∈ ((cfg0.win 3).blk t).view.set ↔ ∀ a : Fin 2, win0_3.index t a * S256x512.size a ≤ (i a).val ∧ (i a).val < win0_3.index t a * S256x512.size a + S256x512.size a := by
  show i ∈ ((View.whole main_v1).slice (win0_3.rect t)).set ↔ _
  rw [View.set_slice_whole, Rect.mem_set_unit]
  exact Iff.rfl

/-- The blocks tile the array: index (r, s) is in the block of the point with first coordinate s / 512 and second r / 256. -/
theorem covered (i : S8192x6144.Idx) :
    ∃ t : Fin cfg0.N, (cfg0.win 3).flush t = true ∧ i ∈ ((cfg0.win 3).blk t).view.set := by
  have hi0 : (i 0).val < 8192 := (i 0).isLt
  have hi1 : (i 1).val < 6144 := (i 1).isLt
  have hlt : (i 1).val / 512 * 32 + (i 0).val / 256 < cfg0.N := lt_of_lt_of_eq (by omega) gridN.symm
  obtain ⟨q0, q1⟩ := out_index ⟨(i 1).val / 512 * 32 + (i 0).val / 256, hlt⟩
  have q0' : win0_3.index ⟨(i 1).val / 512 * 32 + (i 0).val / 256, hlt⟩ (0 : Fin 2) = (i 0).val / 256 := by
    rw [q0]; show ((i 1).val / 512 * 32 + (i 0).val / 256) % 32 = _; omega
  have q1' : win0_3.index ⟨(i 1).val / 512 * 32 + (i 0).val / 256, hlt⟩ (1 : Fin 2) = (i 1).val / 512 := by
    rw [q1]; show ((i 1).val / 512 * 32 + (i 0).val / 256) / 32 = _; omega
  refine ⟨⟨(i 1).val / 512 * 32 + (i 0).val / 256, hlt⟩, flush0_3 _, ?_⟩
  rw [mem_blk]
  intro a
  match a with
  | ⟨0, _⟩ =>
    show win0_3.index ⟨(i 1).val / 512 * 32 + (i 0).val / 256, hlt⟩ (0 : Fin 2) * 256 ≤ (i 0).val
      ∧ (i 0).val < win0_3.index ⟨(i 1).val / 512 * 32 + (i 0).val / 256, hlt⟩ (0 : Fin 2) * 256 + 256
    rw [q0']; omega
  | ⟨1, _⟩ =>
    show win0_3.index ⟨(i 1).val / 512 * 32 + (i 0).val / 256, hlt⟩ (1 : Fin 2) * 512 ≤ (i 1).val
      ∧ (i 1).val < win0_3.index ⟨(i 1).val / 512 * 32 + (i 0).val / 256, hlt⟩ (1 : Fin 2) * 512 + 512
    rw [q1']; omega

/-- So the hidden array ends holding the hidden function of the arrays the kernel finds. -/
theorem final (c : Dev nD) :
    (dat0 (F := Ideal) V c).arrAt 3 cfg0.N = hiddenOf (V c main_v0) (V c main_arg1) (V c main_arg2) :=
  (dat0 V c).arrAt_eq_of_cover 3 (hiddenOf (V c main_v0) (V c main_arg1) (V c main_arg2))
    (fun t _ => flushed_eq V c t) covered

/-- Entry (n, j) of the hidden array when the first kernel has run over its whole grid. -/
theorem hidden_array (c : Dev nD) (n : Fin 8192) (j : Fin 6144) :
    ((dat0 (F := Ideal) V c).arrAt 3 cfg0.N : S8192x6144.Idx → EReal) (ix2 n j)
      = hidE (fun t : Fin 2048 => (V c main_v0 : S8192x2048.Idx → EReal) (ix2 n t))
          (fun t : Fin 2048 => (V c main_arg1 : S6144x2048.Idx → EReal) (ix2 j t))
          (fun t : Fin 2048 => (V c main_arg2 : S6144x2048.Idx → EReal) (ix2 j t)) := by
  exact congrFun (final V c) (ix2 n j)

end Cert.KArr0

end
-- ==== Proof.KBody1.lean ====
/-
  What the second kernel's body leaves in its output block, entry by entry: from a block of 128 hidden rows and a block
  of 256 rows of the last weight (all of full width 6144), entry (p, o) is the inner product of the quantised hidden row p
  and the quantised weight row o.
-/
import proofs.«112546_j17025250361715_1_alg».proof.Proof.Gen.KernelIdeal.Frame
import proofs.«112546_j17025250361715_1_alg».proof.Proof.QuantLaw
import proofs.«112546_j17025250361715_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KBody1

open Cert.KernelIdeal Cert.KernelIdeal.Gen Cert.QuantLaw Idealize.ShloMosaic Idealize.ShloMosaic.ValueIdx

/-! ## Layout steps of a row-wise quantisation, read at an index -/

section Layout
variable {α : Type} {a b : ℕ}

/-- In a reduction of an `a × b` block along its rows, row `p` with the column `k` put back is the entry `(p, k)`. -/
theorem lift_row (h : Shape.Reduces ⟨2, ![a, b]⟩ [1] ⟨1, ![a]⟩) (p : Fin a) (k : Fin b) :
    h.lift (ix1 p) k = ix2 p k := by
  funext d
  match d with
  | ⟨0, _⟩ => exact Fin.ext rfl
  | ⟨1, _⟩ => exact Fin.ext rfl

/-- A vector `[a]` kept as a column `[a, 1]` reads, at `(p, u)`, its entry `p`. -/
theorem shapeCast_a_a1_apply (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- The transpose of an `a × b` block reads, at `(k, j)`, the block at `(j, k)`. -/
theorem transpose_ab_ba_apply (v : (⟨2, ![a, b]⟩ : Shape).Idx → α)
    (h : (⟨2, ![a, b]⟩ : Shape).Transposes [1, 0] ⟨2, ![b, a]⟩) (k : Fin b) (j : Fin a) :
    transpose ⟨2, ![b, a]⟩ [1, 0] v h (ix2 k j) = v (ix2 j k) :=
  transpose_apply [1, 0] v h (ix2 k j) (ix2 j k) (fun c => match c with
    | ⟨0, _⟩ => rfl
    | ⟨1, _⟩ => rfl)

end Layout

/-! ## A block quantised row by row, as the body spells it -/

section Quant
variable {a b : ℕ}

/-- The largest magnitude of row `p`: the fold of `max` from -∞ over the row's magnitudes. -/
theorem rowMax_apply (x : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (p : Fin a) :
    multiReduction (F := Ideal) .maximumf [1] ⟨1, ![a]⟩ (absf x) 0xFF800000#32 h hφ hacc (ix1 p)
      = rowMax (fun k : Fin b => x (ix2 p k)) := by
  refine (Ideal.multiReduction_maximumf_single (absf x) 0xFF800000#32 h hφ hacc (ix1 p)).trans ?_
  unfold rowMax
  refine congrArg (fun f => (Finset.univ : Finset (Fin b)).fold max cNegInf f) (funext fun k => ?_)
  show FloatOps.absf (x (h.lift (ix1 p) k)) = _
  rw [lift_row h p k]
  rfl

/-- The column of the rows' scales: each row's largest magnitude over 127, floored at ε. -/
def sclCol (x : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ)
    (hc : (⟨1, ![a]⟩ : Shape).ShapeCasts ⟨2, ![a, 1]⟩) : FVec Ideal ⟨2, ![a, 1]⟩ .f32 :=
  maximumf
    (divf (shapeCast ⟨2, ![a, 1]⟩ (multiReduction (F := Ideal) .maximumf [1] ⟨1, ![a]⟩ (absf x) 0xFF800000#32 h hφ hacc) hc)
      (broadcast ⟨2, ![a, 1]⟩ (Scalar.ofBits (F := Ideal) .f32 0x42FE0000#32)))
    (broadcast ⟨2, ![a, 1]⟩ (Scalar.ofBits (F := Ideal) .f32 0x322BCC77#32))

/-- Row `p`'s entry of that column is the row's scale. -/
theorem sclCol_apply (x : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ)
    (hc : (⟨1, ![a]⟩ : Shape).ShapeCasts ⟨2, ![a, 1]⟩) (p : Fin a) :
    sclCol x h hφ hacc hc (ix2 p (0 : Fin 1)) = scale (fun k : Fin b => x (ix2 p k)) := by
  unfold sclCol scale
  show max (Ideal.div (shapeCast ⟨2, ![a, 1]⟩ _ hc (ix2 p (0 : Fin 1))) c127) cEps = _
  rw [shapeCast_a_a1_apply, rowMax_apply]

/-- The quantised block: every entry divided by its row's scale, rounded to the nearest integer (ties to even), clipped to
    [-127, 127], and multiplied by the scale again. -/
def qBlk (x : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, b]⟩) :
    FVec Ideal ⟨2, ![a, b]⟩ .f32 :=
  mulf
    (minimumf (broadcast ⟨2, ![a, b]⟩ (Scalar.ofBits (F := Ideal) .f32 0x42FE0000#32))
      (maximumf (broadcast ⟨2, ![a, b]⟩ (Scalar.ofBits (F := Ideal) .f32 0xC2FE0000#32))
        (roundeven (divf x (broadcastTo ⟨2, ![a, b]⟩ (sclCol x h hφ hacc hc) hb)))))
    (broadcastTo ⟨2, ![a, b]⟩ (sclCol x h hφ hacc hc) hb)

/-- Entry `(p, t)` of the quantised block is the quantised entry `t` of row `p`. -/
theorem qBlk_apply (x : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, b]⟩)
    (p : Fin a) (t : Fin b) :
    qBlk x h hφ hacc hc hb (ix2 p t) = q (fun k : Fin b => x (ix2 p k)) t := by
  have hs : broadcastTo ⟨2, ![a, b]⟩ (sclCol x h hφ hacc hc) hb (ix2 p t) = scale (fun k : Fin b => x (ix2 p k)) :=
    (Cert.LibPlainDot.broadcastTo_a1_ab_apply _ hb p t).trans (sclCol_apply x h hφ hacc hc p)
  unfold qBlk q clip rnd
  show min c127 (max cNeg127 (Ideal.liftRound Ideal.roundHalfEven
      (Ideal.div (x (ix2 p t)) (broadcastTo ⟨2, ![a, b]⟩ (sclCol x h hφ hacc hc) hb (ix2 p t)))))
      * broadcastTo ⟨2, ![a, b]⟩ (sclCol x h hφ hacc hc) hb (ix2 p t) = _
  rw [hs]

end Quant

/-! ## The product of the two quantised blocks, read at an entry -/

/-- A rows-by-columns product accumulated into zeros, read at entry `(p, j)`, whatever the operands' formats. -/
theorem matmul_zero_apply {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision)
    (l : FVec Ideal ⟨2, ![M, K]⟩ φ₁) (r : FVec Ideal ⟨2, ![K, N]⟩ φ₂) (p : Fin M) (j : Fin N) :
    FloatOps.matmul D prec l r (constant (F := Ideal) ⟨2, ![M, N]⟩ .f32 0x00000000#32) (ix2 p j)
      = ∑ k : Fin K, l (ix2 p k) * r (ix2 k j) := by
  rw [Ideal.matmul_constant_zero_apply]
  exact Cert.LibPlainDot.sum_plain D hr hs hl0 hl1 hr0 hr1 l r p j

/-- The left operand is read at the entry's row … -/
theorem dot_lhs_0 (i : S128x256.Idx) (q : dot_S128x6144_S6144x256_S128x256_1_0_0_1_n_n.contr.Idx) :
    (dot_S128x6144_S6144x256_S128x256_1_0_0_1_n_n.lhsIdx i q 0).val = (i 0).val := by
  unfold DotDims.lhsIdx
  rw [dif_neg (show ¬(0 : Fin S128x6144.rank) ∈ dot_S128x6144_S6144x256_S128x256_1_0_0_1_n_n.lhsBatch by decide), dif_pos (show (0 : Fin S128x6144.rank) ∈ dot_S128x6144_S6144x256_S128x256_1_0_0_1_n_n.lhsNonContracting by decide)]
  rfl
/-- … and the shared coordinate; -/
theorem dot_lhs_1 (i : S128x256.Idx) (q : dot_S128x6144_S6144x256_S128x256_1_0_0_1_n_n.contr.Idx) :
    (dot_S128x6144_S6144x256_S128x256_1_0_0_1_n_n.lhsIdx i q 1).val = (q ⟨0, by decide⟩).val :=
  dot_S128x6144_S6144x256_S128x256_1_0_0_1_n_n.lhsIdx_val_of_single rfl i q
/-- the right operand at the shared coordinate … -/
theorem dot_rhs_0 (i : S128x256.Idx) (q : dot_S128x6144_S6144x256_S128x256_1_0_0_1_n_n.contr.Idx) :
    (dot_S128x6144_S6144x256_S128x256_1_0_0_1_n_n.rhsIdx i q 0).val = (q ⟨0, by decide⟩).val :=
  dot_S128x6144_S6144x256_S128x256_1_0_0_1_n_n.rhsIdx_val_of_single rfl i q
/-- … and the entry's column. -/
theorem dot_rhs_1 (i : S128x256.Idx) (q : dot_S128x6144_S6144x256_S128x256_1_0_0_1_n_n.contr.Idx) :
    (dot_S128x6144_S6144x256_S128x256_1_0_0_1_n_n.rhsIdx i q 1).val = (i 1).val := by
  unfold DotDims.rhsIdx
  rw [dif_neg (show ¬(1 : Fin S6144x256.rank) ∈ dot_S128x6144_S6144x256_S128x256_1_0_0_1_n_n.rhsBatch by decide), dif_pos (show (1 : Fin S6144x256.rank) ∈ dot_S128x6144_S6144x256_S128x256_1_0_0_1_n_n.rhsNonContracting by decide)]
  rfl

/-- Entry (p, o) of the block the second body stores. -/
theorem out1_2_apply (x0 : Vec Ideal S128x6144 .bf16) (x1 : Vec Ideal S256x6144 .f32) (p : Fin 128) (o : Fin 256) :
    (out1_2 (F := Ideal) x0 x1 : S128x256.Idx → EReal) (ix2 p o)
      = dotq (fun j : Fin 6144 => (x0 : S128x6144.Idx → EReal) (ix2 p j))
          (fun j : Fin 6144 => (x1 : S256x6144.Idx → EReal) (ix2 o j)) := by
  have hz : (![0, 0] : Fin 2 → Nat) = fun _ => 0 := funext fun a => by fin_cases a <;> rfl
  unfold out1_2
  rw [View.canon_unit_zero hz]
  simp only [View.ld_unit_zero (S := S128x6144) hz, View.ld_unit_zero (S := S256x6144) hz]
  unfold k1_pay1
  simp only [shapeCast_self]
  refine (matmul_zero_apply dot_S128x6144_S6144x256_S128x256_1_0_0_1_n_n rfl rfl dot_lhs_0 dot_lhs_1 dot_rhs_0 dot_rhs_1
    none _ _ p o).trans ?_
  unfold dotq
  refine Finset.sum_congr rfl fun k _ => ?_
  refine congrArg₂ (· * ·) ?_ ?_
  · exact qBlk_apply (extf .f32 x0 _) _ _ _ _ _ p k
  · refine (transpose_ab_ba_apply _ _ k o).trans ?_
    exact qBlk_apply x1 _ _ _ _ _ o k

end Cert.KBody1

end
-- ==== Proof.KArr1.lean ====
/-
  The output array after the second kernel's grid, from whatever contents the kernel finds: the 8 × 64 blocks of 128 × 256
  entries tile the 8192 × 2048 array, block (row block i, column block j) being written at the grid point (j, i); entry
  (n, o) is the inner product of the quantised hidden row n and the quantised row o of the last weight.
-/
import proofs.«112546_j17025250361715_1_alg».proof.Proof.Gen.KernelIdeal.Frame
import proofs.«112546_j17025250361715_1_alg».proof.Proof.QuantLaw
import proofs.«112546_j17025250361715_1_alg».proof.Proof.KBody1
import Idealize.ShloMosaic.Lib.ValueIdx
import Idealize.ShloMosaic.Lib.Pipeline.Value

set_option maxRecDepth 16384

noncomputable section

open scoped BigOperators

namespace Cert.KArr1

open Cert.KernelIdeal Cert.KernelIdeal.Gen Cert.QuantLaw Idealize.ShloMosaic Idealize.ShloMosaic.ValueIdx Idealize.ShloMosaic.TcCoe Idealize.SL.Sem

variable (V : (c : Dev nD) → (b : Ref sig .tc) → Buf (Elt Ideal) ((c : Thread nD τ).loc b))

/-- The whole output array as one function of the hidden array and the last weight: entry (n, o) is the inner product of
    the quantised hidden row n and the quantised weight row o. -/
def G (c : Dev nD) : S8192x2048.Idx → EReal := fun i =>
  dotq (fun j : Fin 6144 => (V c main_v1 : S8192x6144.Idx → EReal) (ix2 (i 0) j))
    (fun j : Fin 6144 => (V c main_arg3 : S2048x6144.Idx → EReal) (ix2 (i 1) j))

/-- The three index maps over the 8 × 64 grid: the hidden window's row block is the output's row block, the weight
    window's row block is the output's column block, both input windows sit at column block 0, and the output's block
    indices stay below 64 and 8. -/
theorem idx_facts : ∀ t : Fin cfg1.N,
    win1_0.index t (0 : Fin 2) = win1_2.index t (0 : Fin 2)
    ∧ win1_0.index t (1 : Fin 2) = 0
    ∧ win1_1.index t (0 : Fin 2) = win1_2.index t (1 : Fin 2)
    ∧ win1_1.index t (1 : Fin 2) = 0
    ∧ win1_2.index t (0 : Fin 2) ≤ 63
    ∧ win1_2.index t (1 : Fin 2) ≤ 7 :=
  (by decide +kernel : ∀ t : Fin grid1.N, _)

/-- The grid has 8 × 64 = 512 points. -/
theorem N1 : cfg1.N = 512 := by decide +kernel

/-- The grid point (a, b) is the point number 64 a + b, and the output's block there is (row block b, column block a). -/
theorem idx_at : ∀ (q0 : Fin 64) (q1 : Fin 8) (h : q1.val * 64 + q0.val < grid1.N),
    win1_2.index ⟨q1.val * 64 + q0.val, h⟩ = ![q0.val, q1.val] :=
  (by decide +kernel : ∀ (q0 : Fin 64) (q1 : Fin 8) (h : q1.val * 64 + q0.val < grid1.N), win1_2.index ⟨q1.val * 64 + q0.val, h⟩ = ![q0.val, q1.val])

/-- Every one of the 64 × 8 output blocks is some grid point's. -/
theorem idx_onto (q0 : Fin 64) (q1 : Fin 8) : ∃ t : Fin cfg1.N, win1_2.index t = ![q0.val, q1.val] :=
  ⟨⟨q1.val * 64 + q0.val, by rw [N1]; omega⟩, idx_at q0 q1 _⟩

/-- A hidden block's entry: row p of the block at point t is row (row block × 128 + p) of the hidden array. -/
theorem read_hidden (c : Dev nD) (t : Fin cfg1.N) (p : Fin 128) (k : Fin 6144) (n : Fin 8192)
    (hn : n.val = win1_2.index t (0 : Fin 2) * 128 + p.val) :
    (iblk1 (F := Ideal) V c 0 t : S128x6144.Idx → EReal) (ix2 p k) = (V c main_v1 : S8192x6144.Idx → EReal) (ix2 n k) := by
  obtain ⟨e0, e1, e2, e3, e4, e5⟩ := idx_facts t
  show V c main_v1 (((cfg1.win 0).blk t).view.emb (ix2 p k)) = V c main_v1 (ix2 n k)
  congr 1
  funext a; apply Fin.ext
  match a with
  | ⟨0, _⟩ => show win1_0.index t (0 : Fin 2) * 128 + 1 * p.val = n.val; omega
  | ⟨1, _⟩ => show win1_0.index t (1 : Fin 2) * 6144 + 1 * k.val = k.val; omega

/-- A weight block's entry: row o of the block at point t is row (column block × 256 + o) of the last weight. -/
theorem read_weight (c : Dev nD) (t : Fin cfg1.N) (o : Fin 256) (k : Fin 6144) (r : Fin 2048)
    (hr : r.val = win1_2.index t (1 : Fin 2) * 256 + o.val) :
    (iblk1 (F := Ideal) V c 1 t : S256x6144.Idx → EReal) (ix2 o k) = (V c main_arg3 : S2048x6144.Idx → EReal) (ix2 r k) := by
  obtain ⟨e0, e1, e2, e3, e4, e5⟩ := idx_facts t
  show V c main_arg3 (((cfg1.win 1).blk t).view.emb (ix2 o k)) = V c main_arg3 (ix2 r k)
  congr 1
  funext a; apply Fin.ext
  match a with
  | ⟨0, _⟩ => show win1_1.index t (0 : Fin 2) * 256 + 1 * o.val = r.val; omega
  | ⟨1, _⟩ => show win1_1.index t (1 : Fin 2) * 6144 + 1 * k.val = k.val; omega

/-- One entry of what the body stores at point t, as the entry of G the block's place in the array names. -/
theorem block_entry (c : Dev nD) (t : Fin cfg1.N) (y : S128x256.Idx) :
    (out1_2 (F := Ideal) (iblk1 V c 0 t) (iblk1 V c 1 t) : S128x256.Idx → EReal) y
      = G V c (((cfg1.win 2).blk t).view.emb y) := by
  obtain ⟨p, o, rfl⟩ : ∃ (p : Fin 128) (o : Fin 256), y = ix2 p o := ⟨y 0, y 1, eq_ix2 y⟩
  obtain ⟨e0, e1, e2, e3, e4, e5⟩ := idx_facts t
  rw [Cert.KBody1.out1_2_apply]
  unfold G
  have h0 : ((((cfg1.win 2).blk t).view.emb (ix2 p o)) 0).val = win1_2.index t (0 : Fin 2) * 128 + p.val := by
    show win1_2.index t (0 : Fin 2) * 128 + 1 * p.val = _; omega
  have h1 : ((((cfg1.win 2).blk t).view.emb (ix2 p o)) 1).val = win1_2.index t (1 : Fin 2) * 256 + o.val := by
    show win1_2.index t (1 : Fin 2) * 256 + 1 * o.val = _; omega
  congr 1
  · funext j; exact read_hidden V c t p j _ h0
  · funext j; exact read_weight V c t o j _ h1

/-- What point t writes back is block t of G. -/
theorem flushed_eq (c : Dev nD) (t : Fin cfg1.N) :
    (dat1 (F := Ideal) V c).flushed 2 t = ((cfg1.win 2).blk t).view.read (Elt Ideal) (G V c) := by
  show (cfg1.win 2).cut (grid1.coords t) ((dat1 V c).after 2 t) = _
  rw [after1_2]
  funext y
  exact block_entry V c t y

/-- An index of the output array lies in point t's block iff each coordinate lies in the block's range on its axis. -/
theorem mem_blk (t : Fin cfg1.N) (i : S8192x2048.Idx) :
    i ∈ ((cfg1.win 2).blk t).view.set ↔ ∀ a : Fin 2, win1_2.index t a * S128x256.size a ≤ (i a).val ∧ (i a).val < win1_2.index t a * S128x256.size a + S128x256.size a := by
  show i ∈ ((View.whole main_v2).slice (win1_2.rect t)).set ↔ _
  rw [View.set_slice_whole, Rect.mem_set_unit]
  exact Iff.rfl

/-- The blocks tile the array: entry (r, q) lies in the block of the point whose output block is (r / 128, q / 256). -/
theorem cover (i : S8192x2048.Idx) : ∃ t : Fin cfg1.N, (cfg1.win 2).flush t = true ∧ i ∈ ((cfg1.win 2).blk t).view.set := by
  have hi0 : (i 0).val < 8192 := (i 0).isLt
  have hi1 : (i 1).val < 2048 := (i 1).isLt
  obtain ⟨t, ht⟩ := idx_onto ⟨(i 0).val / 128, by omega⟩ ⟨(i 1).val / 256, by omega⟩
  have q0 : win1_2.index t (0 : Fin 2) = (i 0).val / 128 := congrFun ht 0
  have q1 : win1_2.index t (1 : Fin 2) = (i 1).val / 256 := congrFun ht 1
  refine ⟨t, flush1_2 t, ?_⟩
  rw [mem_blk]
  intro a
  match a with
  | ⟨0, _⟩ => show win1_2.index t (0 : Fin 2) * 128 ≤ (i 0).val ∧ (i 0).val < win1_2.index t (0 : Fin 2) * 128 + 128; omega
  | ⟨1, _⟩ => show win1_2.index t (1 : Fin 2) * 256 ≤ (i 1).val ∧ (i 1).val < win1_2.index t (1 : Fin 2) * 256 + 256; omega

/-- The output array after the whole grid is G. -/
theorem final (c : Dev nD) : (dat1 (F := Ideal) V c).arrAt 2 cfg1.N = G V c :=
  (dat1 (F := Ideal) V c).arrAt_eq_of_cover 2 (G V c) (fun t _ => flushed_eq V c t) cover

/-- Entry (n, o) of the output array when the second kernel has run over its whole grid. -/
theorem out_array (c : Dev nD) (n : Fin 8192) (o : Fin 2048) :
    ((dat1 (F := Ideal) V c).arrAt 2 cfg1.N : S8192x2048.Idx → EReal) (ix2 n o)
      = dotq (fun j : Fin 6144 => (V c main_v1 : S8192x6144.Idx → EReal) (ix2 n j))
          (fun j : Fin 6144 => (V c main_arg3 : S2048x6144.Idx → EReal) (ix2 o j)) := by
  rw [final V c]
  rfl

end Cert.KArr1

end
-- ==== Proof.KValue.lean ====
/-
  The kernel program's result, entry by entry, as a function of the four argument arrays.

  @main reshapes the activations [4, 2048, 2048] to 8192 token rows, runs the two kernels, and reshapes the 8192 × 2048
  output back.  Token (b, s) is row n = 2048·b + s.  The second kernel's array at (n, o) is the inner product of the
  quantised hidden row n and the quantised row o of the last weight; the hidden array, which the first kernel wrote, is at
  (n, j) the gated product of the two projections of token row n; and token row n of the reshaped activations is row
  (b, s) of the argument.  The weights reach both kernels as launched: no host operation and no kernel writes them.
-/
import proofs.«112546_j17025250361715_1_alg».proof.Proof.Gen.KernelIdeal.Frame
import proofs.«112546_j17025250361715_1_alg».proof.Proof.QuantLaw
import proofs.«112546_j17025250361715_1_alg».proof.Proof.KArr0
import proofs.«112546_j17025250361715_1_alg».proof.Proof.KArr1
import Idealize.ShloMosaic.Lib.ValueIdx
import Idealize.ShloMosaic.Lib.Pipeline.Value
import Idealize.ShloMosaic.Lib.StableHlo.Run

set_option maxRecDepth 16384

noncomputable section

open scoped BigOperators

namespace Cert.KValue

open Cert.KernelIdeal Cert.KernelIdeal.Gen Cert.QuantLaw
open Idealize.ShloMosaic Idealize.ShloMosaic.ValueIdx Idealize.ShloMosaic.TcCoe Idealize.SL.Sem Idealize.ShloMosaic.StableHlo

variable (m : (ℓ : Loc nD τ sig) → Buf (Elt Ideal) ℓ) (ρ : Dev nD → PrngReg)

/-- The token row of (b, s). -/
def rowOf (b : Fin 4) (s : Fin 2048) : Fin 8192 := ⟨b.val * 2048 + s.val, by have := b.isLt; have := s.isLt; omega⟩

/-- The first host stretch (one reshape, which writes only the token array) leaves an argument as launched. -/
theorem W1_of_arg (c : Dev nD) (b : Ref sig .tc) (hb : b ≠ main_v0) :
    W1 (F := Ideal) m ρ c (Proc.devRef .tc b) = W0 m ρ c (Proc.devRef .tc b) :=
  StableHlo.after_of_forall_not_mem (b := Proc.devRef .tc b) _ _ (List.forall_iff_forall_mem.mp (by
    simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne hb))

/-- The token array at the first kernel's entry is the activations in row-major order. -/
theorem tokens_entry (c : Dev nD) :
    (W1 (F := Ideal) m ρ c (Proc.devRef .tc main_v0) : S8192x2048.Idx → EReal)
      = shapeCast S8192x2048 (m ((c.tc : Thread nD τ).loc main_arg0) : S4x2048x2048.Idx → EReal)
          Facts₀.shapeCasts_S4x2048x2048_S8192x2048 := by
  show StableHlo.after hostOps0 (W0 m ρ c) (Proc.devRef .tc main_v0) = _
  after_results
  rfl

/-- Token row 2048·b + s of the reshaped activations is row (b, s) of the argument. -/
theorem tokens_entry_apply (c : Dev nD) (b : Fin 4) (s t : Fin 2048) :
    (W1 (F := Ideal) m ρ c (Proc.devRef .tc main_v0) : S8192x2048.Idx → EReal) (ix2 (rowOf b s) t)
      = (m ((c.tc : Thread nD τ).loc main_arg0) : S4x2048x2048.Idx → EReal) (ix3 b s t) := by
  rw [tokens_entry]
  refine shapeCast_apply _ _ (ix2 (rowOf b s) t) (ix3 b s t) ?_
  rw [Shape.rowMajor_val_three, Shape.rowMajor_val_two]
  rfl

/-- The result array at the last boundary is the second kernel's output in row-major order at [4, 2048, 2048]. -/
theorem result_exit (c : Dev nD) :
    (W4 (F := Ideal) m ρ c (Proc.devRef .tc main_v3) : S4x2048x2048.Idx → EReal)
      = shapeCast S4x2048x2048 (W3 m ρ c (Proc.devRef .tc main_v2) : S8192x2048.Idx → EReal)
          Facts₀.shapeCasts_S8192x2048_S4x2048x2048 := by
  show StableHlo.after hostOps2 (W3 m ρ c) (Proc.devRef .tc main_v3) = _
  after_results
  rfl

/-- THE RESULT, entry (b, s, o): the layer's output entry of token row (b, s) against row o of the last weight. -/
theorem result_value (c : Dev nD) (b : Fin 4) (s o : Fin 2048) :
    (W4 (F := Ideal) m ρ c (Proc.devRef .tc main_v3) : S4x2048x2048.Idx → EReal) (ix3 b s o)
      = outE (fun t : Fin 2048 => (m ((c.tc : Thread nD τ).loc main_arg0) : S4x2048x2048.Idx → EReal) (ix3 b s t))
          (fun (j : Fin 6144) (t : Fin 2048) => (m ((c.tc : Thread nD τ).loc main_arg1) : S6144x2048.Idx → EReal) (ix2 j t))
          (fun (j : Fin 6144) (t : Fin 2048) => (m ((c.tc : Thread nD τ).loc main_arg2) : S6144x2048.Idx → EReal) (ix2 j t))
          (fun j : Fin 6144 => (m ((c.tc : Thread nD τ).loc main_arg3) : S2048x6144.Idx → EReal) (ix2 o j)) := by
  rw [result_exit]
  rw [shapeCast_apply _ _ (ix3 b s o) (ix2 (rowOf b s) o) (by
    rw [Shape.rowMajor_val_three, Shape.rowMajor_val_two]; rfl)]
  have hout : (W3 (F := Ideal) m ρ c (Proc.devRef .tc main_v2) : S8192x2048.Idx → EReal)
      = (dat1 (F := Ideal) (V2 m ρ) c).arrAt 2 cfg1.N := W3_arr m ρ c 2
  rw [hout, Cert.KArr1.out_array (V2 m ρ) c (rowOf b s) o]
  unfold outE
  have hhid : (V2 (F := Ideal) m ρ c main_v1 : S8192x6144.Idx → EReal)
      = (dat0 (F := Ideal) (V1 m ρ) c).arrAt 3 cfg0.N := W2_arr m ρ c 3
  have hw1 : (V1 (F := Ideal) m ρ c main_arg1 : S6144x2048.Idx → EReal) = m ((c.tc : Thread nD τ).loc main_arg1) :=
    W1_of_arg m ρ c main_arg1 (by decide)
  have hw2 : (V1 (F := Ideal) m ρ c main_arg2 : S6144x2048.Idx → EReal) = m ((c.tc : Thread nD τ).loc main_arg2) :=
    W1_of_arg m ρ c main_arg2 (by decide)
  have hw3 : (V2 (F := Ideal) m ρ c main_arg3 : S2048x6144.Idx → EReal) = m ((c.tc : Thread nD τ).loc main_arg3) :=
    (W2_of_ne m ρ c main_arg3 (by decide)).trans (W1_of_arg m ρ c main_arg3 (by decide))
  have hrow : (fun j : Fin 6144 => (V2 (F := Ideal) m ρ c main_v1 : S8192x6144.Idx → EReal) (ix2 (rowOf b s) j))
      = fun j : Fin 6144 => hidE (fun t : Fin 2048 => (m ((c.tc : Thread nD τ).loc main_arg0) : S4x2048x2048.Idx → EReal) (ix3 b s t))
          (fun t : Fin 2048 => (m ((c.tc : Thread nD τ).loc main_arg1) : S6144x2048.Idx → EReal) (ix2 j t))
          (fun t : Fin 2048 => (m ((c.tc : Thread nD τ).loc main_arg2) : S6144x2048.Idx → EReal) (ix2 j t)) := by
    funext j
    have htok : (fun t : Fin 2048 => (V1 (F := Ideal) m ρ c main_v0 : S8192x2048.Idx → EReal) (ix2 (rowOf b s) t))
        = fun t : Fin 2048 => (m ((c.tc : Thread nD τ).loc main_arg0) : S4x2048x2048.Idx → EReal) (ix3 b s t) :=
      funext fun t => tokens_entry_apply m ρ c b s t
    rw [hhid, Cert.KArr0.hidden_array (V1 m ρ) c (rowOf b s) j, hw1, hw2, htok]
  rw [hrow, hw3]

end Cert.KValue

end
-- ==== Proof.RefQuant.lean ====
/-
  The reference's five quantised arrays read at an entry: the activations (computed twice), the two up-projection weights,
  the hidden activations and the last weight are each the row-wise quantisation, in the spelling whose rounding is
  `u + (round u - u)`, of the array they are made from.
-/
import proofs.«112546_j17025250361715_1_alg».proof.Proof.Gen.ReferenceIdeal.Read
import proofs.«112546_j17025250361715_1_alg».proof.Proof.QuantLaw
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.RefQuant

open Cert.ReferenceIdeal Cert.ReferenceIdeal.Read Cert.QuantLaw Idealize.ShloMosaic Idealize.ShloMosaic.ValueIdx

/-! ## A reduction over the last axis, read at an index

The reduced index with a coordinate put back on the dropped (last) axis is the index of those coordinates, so the
maximum over the last axis, folded from -∞ over the magnitudes, is the row's largest magnitude. -/

/-- The reduced index (b, s) with the coordinate k put back on the last axis is (b, s, k). -/
theorem lift3 {n0 n1 n2 : Nat} (h : (⟨3, ![n0, n1, n2]⟩ : Shape).Reduces [2] (⟨2, ![n0, n1]⟩ : Shape))
    (b : Fin n0) (s : Fin n1) (k : Fin n2) :
    h.lift (ix2 b s) k = ix3 b s k := by
  funext c; apply Fin.ext
  match c with
  | ⟨0, _⟩ => rfl
  | ⟨1, _⟩ => rfl
  | ⟨2, _⟩ => rfl

/-- The reduced index j with the coordinate k put back on the last axis is (j, k). -/
theorem lift2 {n0 n1 : Nat} (h : (⟨2, ![n0, n1]⟩ : Shape).Reduces [1] (⟨1, ![n0]⟩ : Shape))
    (j : Fin n0) (k : Fin n1) :
    h.lift (ix1 j) k = ix2 j k := by
  funext c; apply Fin.ext
  match c with
  | ⟨0, _⟩ => rfl
  | ⟨1, _⟩ => rfl

/-- Rank 3: the maximum over the last axis of the magnitudes of `x`, from -∞, at (b, s), is the largest magnitude of the
    row `x (b, s, ·)`. -/
theorem rowMax3 {n0 n1 n2 : Nat} (x : (⟨3, ![n0, n1, n2]⟩ : Shape).Idx → EReal) (init : S_.Idx → EReal)
    (h' : (⟨3, ![n0, n1, n2]⟩ : Shape).ReducesTo [2] (⟨2, ![n0, n1]⟩ : Shape))
    (h : (⟨3, ![n0, n1, n2]⟩ : Shape).Reduces [2] (⟨2, ![n0, n1]⟩ : Shape)) (hu : 0 < S_.numel)
    (hinit : ∀ i, init i = cNegInf) (b : Fin n0) (s : Fin n1) :
    Host.reduce (FloatOps.maximumf (F := Ideal) (φ := .f32)) (fun i => FloatOps.hostAbsf (x i)) init h' hu (ix2 b s)
      = rowMax (fun t' : Fin n2 => x (ix3 b s t')) := by
  rw [Host.reduce_eq_fold_single (FloatOps.maximumf (F := Ideal) (φ := .f32)) _ init h' h hu, hinit]
  unfold rowMax
  have hf : ((fun i => FloatOps.hostAbsf (F := Ideal) (φ := .f32) (x i)) ∘ h.lift (ix2 b s))
      = fun k : Fin n2 => max (x (ix3 b s k)) (-(x (ix3 b s k))) :=
    funext fun k => by
      show FloatOps.hostAbsf (F := Ideal) (φ := .f32) (x (h.lift (ix2 b s) k)) = _
      rw [lift3 h b s k]; rfl
  exact congrArg (fun f => Finset.fold max cNegInf f (Finset.univ : Finset (Fin n2))) hf

/-- Rank 2: the same at a row j of a matrix. -/
theorem rowMax2 {n0 n1 : Nat} (x : (⟨2, ![n0, n1]⟩ : Shape).Idx → EReal) (init : S_.Idx → EReal)
    (h' : (⟨2, ![n0, n1]⟩ : Shape).ReducesTo [1] (⟨1, ![n0]⟩ : Shape))
    (h : (⟨2, ![n0, n1]⟩ : Shape).Reduces [1] (⟨1, ![n0]⟩ : Shape)) (hu : 0 < S_.numel)
    (hinit : ∀ i, init i = cNegInf) (j : Fin n0) :
    Host.reduce (FloatOps.maximumf (F := Ideal) (φ := .f32)) (fun i => FloatOps.hostAbsf (x i)) init h' hu (ix1 j)
      = rowMax (fun t' : Fin n1 => x (ix2 j t')) := by
  rw [Host.reduce_eq_fold_single (FloatOps.maximumf (F := Ideal) (φ := .f32)) _ init h' h hu, hinit]
  unfold rowMax
  have hf : ((fun i => FloatOps.hostAbsf (F := Ideal) (φ := .f32) (x i)) ∘ h.lift (ix1 j))
      = fun k : Fin n1 => max (x (ix2 j k)) (-(x (ix2 j k))) :=
    funext fun k => by
      show FloatOps.hostAbsf (F := Ideal) (φ := .f32) (x (h.lift (ix1 j) k)) = _
      rw [lift2 h j k]; rfl
  exact congrArg (fun f => Finset.fold max cNegInf f (Finset.univ : Finset (Fin n1))) hf

/-! ## The six row maxima -/

theorem v1_read (x0 : S4x2048x2048.Idx → EReal) (b : Fin 4) (s : Fin 2048) :
    (val_main_v1 (F := Ideal) x0 : S4x2048.Idx → EReal) (ix2 b s) = rowMax (fun t' : Fin 2048 => x0 (ix3 b s t')) :=
  rowMax3 x0 _ _ (by decide) _ (fun _ => rfl) b s

theorem v33_read (x0 : S4x2048x2048.Idx → EReal) (b : Fin 4) (s : Fin 2048) :
    (val_main_v33 (F := Ideal) x0 : S4x2048.Idx → EReal) (ix2 b s) = rowMax (fun t' : Fin 2048 => x0 (ix3 b s t')) :=
  rowMax3 x0 _ _ (by decide) _ (fun _ => rfl) b s

theorem v16_read (x1 : S6144x2048.Idx → EReal) (j : Fin 6144) :
    (val_main_v16 (F := Ideal) x1 : S6144.Idx → EReal) (ix1 j) = rowMax (fun t' : Fin 2048 => x1 (ix2 j t')) :=
  rowMax2 x1 _ _ (by decide) _ (fun _ => rfl) j

theorem v48_read (x2 : S6144x2048.Idx → EReal) (j : Fin 6144) :
    (val_main_v48 (F := Ideal) x2 : S6144.Idx → EReal) (ix1 j) = rowMax (fun t' : Fin 2048 => x2 (ix2 j t')) :=
  rowMax2 x2 _ _ (by decide) _ (fun _ => rfl) j

theorem v65_read (x0 : S4x2048x2048.Idx → EReal) (x1 x2 : S6144x2048.Idx → EReal) (b : Fin 4) (s : Fin 2048) :
    (val_main_v65 (F := Ideal) x0 x1 x2 : S4x2048.Idx → EReal) (ix2 b s)
      = rowMax (fun j' : Fin 6144 => (val_main_v63 (F := Ideal) x0 x1 x2 : S4x2048x6144.Idx → EReal) (ix3 b s j')) :=
  rowMax3 (val_main_v63 (F := Ideal) x0 x1 x2) _ _ (by decide) _ (fun _ => rfl) b s

theorem v80_read (x3 : S2048x6144.Idx → EReal) (o : Fin 2048) :
    (val_main_v80 (F := Ideal) x3 : S2048.Idx → EReal) (ix1 o) = rowMax (fun j' : Fin 6144 => x3 (ix2 o j')) :=
  rowMax2 x3 _ _ (by decide) _ (fun _ => rfl) o

/-! ## The six quantised arrays

Each stage is read down to its source: the scale is read at the row's index (the two broadcasts send (b, s, t) to
(b, s, 0) and then to (b, s)), the row maximum is the fold above, and what is left is the quantised entry's own
definition, operation by operation. -/

/-- The activations, quantised along the feature axis (first copy). -/
theorem act_quant (x0 : S4x2048x2048.Idx → EReal) (b : Fin 4) (s : Fin 2048) (t : Fin 2048) :
    (val_main_v14 (F := Ideal) x0 : S4x2048x2048.Idx → EReal) (ix3 b s t) = qste (fun t' : Fin 2048 => x0 (ix3 b s t')) t := by
  have e : idx_main_v2 (idx_main_v7 (ix3 b s t)) = ix2 b s :=
    funext fun a => Fin.ext (by match a with | ⟨0, _⟩ => rfl | ⟨1, _⟩ => rfl)
  simp only [val_main_v14_apply, val_main_v12_apply, val_main_v13_apply, val_main_call1_v4_apply,
    val_main_call1_v3_apply, val_main_cst_3_apply, val_main_call1_v2_apply, val_main_call1_v1_apply,
    val_main_call1_v0_apply, val_main_cst_2_apply, val_main_v11_apply, val_main_v10_apply, val_main_v9_apply,
    val_main_v8_apply, val_main_v7_apply, val_main_v6_apply, val_main_v5_apply, val_main_cst_1_apply, val_main_v4_apply,
    val_main_v3_apply, val_main_cst_0_apply, val_main_v2_apply]
  rw [e, v1_read]
  rfl

/-- The activations, quantised along the feature axis (second copy). -/
theorem act_quant' (x0 : S4x2048x2048.Idx → EReal) (b : Fin 4) (s : Fin 2048) (t : Fin 2048) :
    (val_main_v46 (F := Ideal) x0 : S4x2048x2048.Idx → EReal) (ix3 b s t) = qste (fun t' : Fin 2048 => x0 (ix3 b s t')) t := by
  have e : idx_main_v34 (idx_main_v39 (ix3 b s t)) = ix2 b s :=
    funext fun a => Fin.ext (by match a with | ⟨0, _⟩ => rfl | ⟨1, _⟩ => rfl)
  simp only [val_main_v46_apply, val_main_v44_apply, val_main_v45_apply, val_main_call6_v4_apply,
    val_main_call6_v3_apply, val_main_cst_13_apply, val_main_call6_v2_apply, val_main_call6_v1_apply,
    val_main_call6_v0_apply, val_main_cst_12_apply, val_main_v43_apply, val_main_v42_apply, val_main_v41_apply,
    val_main_v40_apply, val_main_v39_apply, val_main_v38_apply, val_main_v37_apply, val_main_cst_11_apply,
    val_main_v36_apply, val_main_v35_apply, val_main_cst_10_apply, val_main_v34_apply]
  rw [e, v33_read]
  rfl

/-- The gate weight, quantised along its input axis. -/
theorem wg_quant (x1 : S6144x2048.Idx → EReal) (j : Fin 6144) (t : Fin 2048) :
    (val_main_v29 (F := Ideal) x1 : S6144x2048.Idx → EReal) (ix2 j t) = qste (fun t' : Fin 2048 => x1 (ix2 j t')) t := by
  have e : idx_main_v17 (idx_main_v22 (ix2 j t)) = ix1 j :=
    funext fun a => Fin.ext (by match a with | ⟨0, _⟩ => rfl)
  simp only [val_main_v29_apply, val_main_v27_apply, val_main_v28_apply, val_main_call3_v4_apply,
    val_main_call3_v3_apply, val_main_cst_8_apply, val_main_call3_v2_apply, val_main_call3_v1_apply,
    val_main_call3_v0_apply, val_main_cst_7_apply, val_main_v26_apply, val_main_v25_apply, val_main_v24_apply,
    val_main_v23_apply, val_main_v22_apply, val_main_v21_apply, val_main_v20_apply, val_main_cst_6_apply,
    val_main_v19_apply, val_main_v18_apply, val_main_cst_5_apply, val_main_v17_apply]
  rw [e, v16_read]
  rfl

/-- The up weight, quantised along its input axis. -/
theorem wu_quant (x2 : S6144x2048.Idx → EReal) (j : Fin 6144) (t : Fin 2048) :
    (val_main_v61 (F := Ideal) x2 : S6144x2048.Idx → EReal) (ix2 j t) = qste (fun t' : Fin 2048 => x2 (ix2 j t')) t := by
  have e : idx_main_v49 (idx_main_v54 (ix2 j t)) = ix1 j :=
    funext fun a => Fin.ext (by match a with | ⟨0, _⟩ => rfl)
  simp only [val_main_v61_apply, val_main_v59_apply, val_main_v60_apply, val_main_call8_v4_apply,
    val_main_call8_v3_apply, val_main_cst_18_apply, val_main_call8_v2_apply, val_main_call8_v1_apply,
    val_main_call8_v0_apply, val_main_cst_17_apply, val_main_v58_apply, val_main_v57_apply, val_main_v56_apply,
    val_main_v55_apply, val_main_v54_apply, val_main_v53_apply, val_main_v52_apply, val_main_cst_16_apply,
    val_main_v51_apply, val_main_v50_apply, val_main_cst_15_apply, val_main_v49_apply]
  rw [e, v48_read]
  rfl

/-- The hidden activations, quantised along the hidden axis. -/
theorem hid_quant (x0 : S4x2048x2048.Idx → EReal) (x1 x2 : S6144x2048.Idx → EReal) (b : Fin 4) (s : Fin 2048) (j : Fin 6144) :
    (val_main_v78 (F := Ideal) x0 x1 x2 : S4x2048x6144.Idx → EReal) (ix3 b s j)
      = qste (fun j' : Fin 6144 => (val_main_v63 (F := Ideal) x0 x1 x2 : S4x2048x6144.Idx → EReal) (ix3 b s j')) j := by
  have e : idx_main_v66 (idx_main_v71 (ix3 b s j)) = ix2 b s :=
    funext fun a => Fin.ext (by match a with | ⟨0, _⟩ => rfl | ⟨1, _⟩ => rfl)
  simp only [val_main_v78_apply, val_main_v76_apply, val_main_v77_apply, val_main_call10_v4_apply,
    val_main_call10_v3_apply, val_main_cst_23_apply, val_main_call10_v2_apply, val_main_call10_v1_apply,
    val_main_call10_v0_apply, val_main_cst_22_apply, val_main_v75_apply, val_main_v74_apply, val_main_v73_apply,
    val_main_v72_apply, val_main_v71_apply, val_main_v70_apply, val_main_v69_apply, val_main_cst_21_apply,
    val_main_v68_apply, val_main_v67_apply, val_main_cst_20_apply, val_main_v66_apply]
  rw [e, v65_read]
  rfl

/-- The last weight, quantised along its input axis. -/
theorem wd_quant (x3 : S2048x6144.Idx → EReal) (o : Fin 2048) (j : Fin 6144) :
    (val_main_v93 (F := Ideal) x3 : S2048x6144.Idx → EReal) (ix2 o j) = qste (fun j' : Fin 6144 => x3 (ix2 o j')) j := by
  have e : idx_main_v81 (idx_main_v86 (ix2 o j)) = ix1 o :=
    funext fun a => Fin.ext (by match a with | ⟨0, _⟩ => rfl)
  simp only [val_main_v93_apply, val_main_v91_apply, val_main_v92_apply, val_main_call12_v4_apply,
    val_main_call12_v3_apply, val_main_cst_28_apply, val_main_call12_v2_apply, val_main_call12_v1_apply,
    val_main_call12_v0_apply, val_main_cst_27_apply, val_main_v90_apply, val_main_v89_apply, val_main_v88_apply,
    val_main_v87_apply, val_main_v86_apply, val_main_v85_apply, val_main_v84_apply, val_main_cst_26_apply,
    val_main_v83_apply, val_main_v82_apply, val_main_cst_25_apply, val_main_v81_apply]
  rw [e, v80_read]
  rfl

end Cert.RefQuant

end
-- ==== Proof.RefChain.lean ====
/-
  The reference's result read at an entry: the hidden entry (b, s, j) is the gated product of the two projections of token
  (b, s), and the result entry (b, s, o) is the inner product of the quantised hidden row of that token and the quantised
  row o of the last weight, all in the spelling whose rounding is `u + (round u - u)` and whose logistic function is
  spelt out.
-/
import proofs.«112546_j17025250361715_1_alg».proof.Proof.Gen.ReferenceIdeal.Read
import proofs.«112546_j17025250361715_1_alg».proof.Proof.QuantLaw
import proofs.«112546_j17025250361715_1_alg».proof.Proof.RefQuant
import Idealize.ShloMosaic.Lib.ValueIdx
import Idealize.ShloMosaic.PureOps.Ideal.Laws

set_option maxRecDepth 16384

noncomputable section

open scoped BigOperators

namespace Cert.RefChain

open Cert.ReferenceIdeal Cert.ReferenceIdeal.Read Cert.QuantLaw Idealize.ShloMosaic Idealize.ShloMosaic.ValueIdx

open Cert.RefQuant

/-! The contraction of the first projection at entry (b, s, j) reads the left operand at (b, s, k) and the right at (j, k). -/
theorem lidx30 (b : Fin 4) (s : Fin 2048) (j : Fin 6144) (k : Fin 2048) :
    lidx_main_v30 (ix3 b s j) k = ix3 b s k :=
  funext fun a => Fin.ext (by match a with | ⟨0, _⟩ => rfl | ⟨1, _⟩ => rfl | ⟨2, _⟩ => rfl)

theorem ridx30 (b : Fin 4) (s : Fin 2048) (j : Fin 6144) (k : Fin 2048) :
    ridx_main_v30 (ix3 b s j) k = ix2 j k :=
  funext fun a => Fin.ext (by match a with | ⟨0, _⟩ => rfl | ⟨1, _⟩ => rfl)

/-! The same for the second projection. -/
theorem lidx62 (b : Fin 4) (s : Fin 2048) (j : Fin 6144) (k : Fin 2048) :
    lidx_main_v62 (ix3 b s j) k = ix3 b s k :=
  funext fun a => Fin.ext (by match a with | ⟨0, _⟩ => rfl | ⟨1, _⟩ => rfl | ⟨2, _⟩ => rfl)

theorem ridx62 (b : Fin 4) (s : Fin 2048) (j : Fin 6144) (k : Fin 2048) :
    ridx_main_v62 (ix3 b s j) k = ix2 j k :=
  funext fun a => Fin.ext (by match a with | ⟨0, _⟩ => rfl | ⟨1, _⟩ => rfl)

/-! The last contraction at entry (b, s, o) reads the hidden array at (b, s, k) and the last weight at (o, k). -/
theorem lidx94 (b : Fin 4) (s : Fin 2048) (o : Fin 2048) (k : Fin 6144) :
    lidx_main_v94 (ix3 b s o) k = ix3 b s k :=
  funext fun a => Fin.ext (by match a with | ⟨0, _⟩ => rfl | ⟨1, _⟩ => rfl | ⟨2, _⟩ => rfl)

theorem ridx94 (b : Fin 4) (s : Fin 2048) (o : Fin 2048) (k : Fin 6144) :
    ridx_main_v94 (ix3 b s o) k = ix2 o k :=
  funext fun a => Fin.ext (by match a with | ⟨0, _⟩ => rfl | ⟨1, _⟩ => rfl)

/-- The gate projection at (b, s, j): the inner product of the quantised token row and the quantised row j of the gate weight. -/
theorem gate_proj (x0 : S4x2048x2048.Idx → EReal) (x1 : S6144x2048.Idx → EReal) (b : Fin 4) (s : Fin 2048) (j : Fin 6144) :
    (val_main_v30 (F := Ideal) x0 x1 : S4x2048x6144.Idx → EReal) (ix3 b s j)
      = dotqste (fun t : Fin 2048 => x0 (ix3 b s t)) (fun t : Fin 2048 => x1 (ix2 j t)) := by
  rw [val_main_v30_apply]
  unfold dotqste
  refine Finset.sum_congr rfl fun k _ => ?_
  rw [lidx30, ridx30, act_quant, wg_quant]

/-- The up projection at (b, s, j). -/
theorem up_proj (x0 : S4x2048x2048.Idx → EReal) (x2 : S6144x2048.Idx → EReal) (b : Fin 4) (s : Fin 2048) (j : Fin 6144) :
    (val_main_v62 (F := Ideal) x0 x2 : S4x2048x6144.Idx → EReal) (ix3 b s j)
      = dotqste (fun t : Fin 2048 => x0 (ix3 b s t)) (fun t : Fin 2048 => x2 (ix2 j t)) := by
  rw [val_main_v62_apply]
  unfold dotqste
  refine Finset.sum_congr rfl fun k _ => ?_
  rw [lidx62, ridx62, act_quant', wu_quant]

/-- The gated stage at any entry: `g · (1 / (1 + e^{-g}))` of the gate projection there. -/
theorem gated (x0 : S4x2048x2048.Idx → EReal) (x1 : S6144x2048.Idx → EReal) (i : S4x2048x6144.Idx) :
    (val_main_v31 (F := Ideal) x0 x1 : S4x2048x6144.Idx → EReal) i
      = siluHost ((val_main_v30 (F := Ideal) x0 x1 : S4x2048x6144.Idx → EReal) i) := by
  rw [val_main_v31_apply, val_main_call4_v5_apply, val_main_call4_v4_apply, val_main_call4_cst_0_apply,
    val_main_call4_v3_apply, val_main_call4_v2_apply, val_main_call4_cst_apply, val_main_call4_v1_apply,
    val_main_call4_v0_apply]
  unfold siluHost
  rfl

/-- The hidden entry (b, s, j). -/
theorem hidden (x0 : S4x2048x2048.Idx → EReal) (x1 x2 : S6144x2048.Idx → EReal) (b : Fin 4) (s : Fin 2048) (j : Fin 6144) :
    (val_main_v63 (F := Ideal) x0 x1 x2 : S4x2048x6144.Idx → EReal) (ix3 b s j)
      = hidEste (fun t : Fin 2048 => x0 (ix3 b s t)) (fun t : Fin 2048 => x1 (ix2 j t)) (fun t : Fin 2048 => x2 (ix2 j t)) := by
  rw [val_main_v63_apply, gated, gate_proj, up_proj]
  unfold hidEste
  rfl

/-- The result entry (b, s, o). -/
theorem ref_value (x0 : S4x2048x2048.Idx → EReal) (x1 x2 : S6144x2048.Idx → EReal) (x3 : S2048x6144.Idx → EReal)
    (b : Fin 4) (s : Fin 2048) (o : Fin 2048) :
    (val_main_v94 (F := Ideal) x0 x1 x2 x3 : S4x2048x2048.Idx → EReal) (ix3 b s o)
      = outEste (fun t : Fin 2048 => x0 (ix3 b s t)) (fun (j : Fin 6144) (t : Fin 2048) => x1 (ix2 j t))
          (fun (j : Fin 6144) (t : Fin 2048) => x2 (ix2 j t)) (fun j : Fin 6144 => x3 (ix2 o j)) := by
  have hrow : (fun j' : Fin 6144 => (val_main_v63 (F := Ideal) x0 x1 x2 : S4x2048x6144.Idx → EReal) (ix3 b s j'))
      = fun j' : Fin 6144 => hidEste (fun t : Fin 2048 => x0 (ix3 b s t)) (fun t : Fin 2048 => x1 (ix2 j' t))
          (fun t : Fin 2048 => x2 (ix2 j' t)) :=
    funext fun j' => hidden x0 x1 x2 b s j'
  rw [val_main_v94_apply]
  unfold outEste dotqste
  refine Finset.sum_congr rfl fun k _ => ?_
  rw [lidx94, ridx94, hid_quant, wd_quant, hrow]

end Cert.RefChain

end
-- ==== Proof.Finite.lean ====
/-
  The precondition read: it says of each of the four argument arrays that every entry's magnitude is below +∞, so
  every entry is a real number.
-/
import proofs.«112546_j17025250361715_1_alg».proof.Defs
import proofs.«112546_j17025250361715_1_alg».proof.Proof.Gen.KernelIdeal
import proofs.«112546_j17025250361715_1_alg».proof.Proof.Gen.Pre_finite_inputs
import proofs.«112546_j17025250361715_1_alg».proof.Proof.QuantLaw
import Idealize.ShloMosaic.Lib.ValueIdx
import Idealize.ShloMosaic.Lib.ReduceAll

set_option maxRecDepth 16384

noncomputable section

open scoped BigOperators

namespace Cert.Finite

open Cert.KernelIdeal Cert.QuantLaw Idealize.ShloMosaic Idealize.ShloMosaic.ValueIdx Idealize.ShloMosaic.TcCoe Idealize.SL.Sem

/-- The shape of rank zero has one index. -/
instance subsingleton_scalarIdx : Subsingleton (⟨0, ![]⟩ : Shape).Idx := ⟨fun a b => funext fun d => d.elim0⟩

/-- The single-precision word 0x7F800000 denotes +∞. -/
theorem ofBits_posInf : Ideal.ofBits .f32 0x7F800000#32 = (⊤ : EReal) := by
  simp [Ideal.ofBits, Ideal.ieee]

/-- An extended real whose magnitude `max x (-x)` lies below +∞ is a real number: at -∞ the magnitude is
    `max ⊥ ⊤ = ⊤`, at +∞ it is `max ⊤ ⊥ = ⊤`, and neither is below ⊤. -/
theorem isReal_of_abs_lt_top (x : EReal) (h : max x (-x) < ⊤) : IsReal x := by
  induction x using EReal.rec with
  | bot => simp at h
  | coe r => exact ⟨r, rfl⟩
  | top => simp at h

/-- The element fact: the comparison `|x| < +∞` coming out 1 says `x` is real. -/
theorem isReal_of_cmp (x : EReal)
    (h : Ideal.cmp .olt (max x (-x)) (Ideal.ofBits .f32 0x7F800000#32) = 1#1) : IsReal x := by
  apply isReal_of_abs_lt_top
  rw [ofBits_posInf] at h
  by_contra hn
  have h0 : Ideal.cmp .olt (max x (-x)) ⊤ = 0#1 := by
    simp only [Ideal.cmp, decide_eq_false hn]; rfl
  rw [h0] at h
  exact absurd h (by decide)

/-- An array of any shape whose all-finite test — the conjunction, over every index, of `|x i| < +∞`, folded into
    the one index of the rank-zero shape — is 1 has a real number at every index. -/
theorem real_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (h0 : 0 < (⟨0, ![]⟩ : Shape).numel)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr h0 ix0 = 1#1) (i : s.Idx) : IsReal (x i) := by
  have hi := Host.reduce_andi_all _ _ hr h0 ix0 e i
  exact isReal_of_cmp (x i) hi

/-- Under the precondition every entry of every argument array is a real number. -/
theorem real_of_pre (m : (ℓ : Loc nD τ sig) → Buf (Elt Ideal) ℓ) (h : Cert.Pre_KernelIdeal m) (c : Dev nD) :
    (∀ i : S4x2048x2048.Idx, IsReal ((m ((c.tc : Thread nD τ).loc main_arg0) : S4x2048x2048.Idx → EReal) i))
    ∧ (∀ i : S6144x2048.Idx, IsReal ((m ((c.tc : Thread nD τ).loc main_arg1) : S6144x2048.Idx → EReal) i))
    ∧ (∀ i : S6144x2048.Idx, IsReal ((m ((c.tc : Thread nD τ).loc main_arg2) : S6144x2048.Idx → EReal) i))
    ∧ (∀ i : S2048x6144.Idx, IsReal ((m ((c.tc : Thread nD τ).loc main_arg3) : S2048x6144.Idx → EReal) i)) := by
  have h0 := congrFun (h c) ValueIdx.ix0
  dsimp only [Cert.Pre_finite_inputs.fn, Cert.Pre_finite_inputs.fn_part1, Idealize.ShloMosaic.andi] at h0
  obtain ⟨h123, h4⟩ := IntOp.andi_eq_one.1 h0
  obtain ⟨h12, h3⟩ := IntOp.andi_eq_one.1 h123
  obtain ⟨h1, h2⟩ := IntOp.andi_eq_one.1 h12
  exact ⟨real_of_all _ _ _ _ h1, real_of_all _ _ _ _ h2, real_of_all _ _ _ _ h3, real_of_all _ _ _ _ h4⟩

end Cert.Finite

end
-- ==== Proof.lean ====
/-
  The certificate of a fake-eight-bit-quantised gated MLP: two kernels (the gate and up projections fused with the
  gating, over 256 × 512 blocks of the hidden array; the down projection, over 128 × 256 blocks of the output) against
  the plain formulation `down(silu(gate x) · up x)` with every operand of every product quantised row by row.

  Both programs compute, for token (b, s) and output feature o, the inner product of the quantised hidden row of the token
  and the quantised row o of the last weight, where hidden entry j is `silu(⟨q x, q w_gate[j]⟩) · ⟨q x, q w_up[j]⟩`.
  They differ in three spellings, all equal on the extended reals once the inputs are real numbers: the reference rounds
  by `u + (round u − u)` (equal to `round u` at a real `u`, and every `u` met is real because a scale is a positive
  real), spells the logistic function out (the same function by definition), and keeps the hidden array in single
  precision where the kernels store it in a sixteen-bit format (a change of format is the identity on exact values).
  The tiling plays no part: every block carries the whole reduced axis, and the blocks tile the two arrays.

  The kernel program's run with its result named is the frame's launch called once more (module KRun); its value is read
  through the two host reshapes and the two kernels' arrays (KValue over KArr0, KArr1, KBody0, KBody1); the reference's
  value through its generated run and read-at-an-index lemmas (RefQuant, RefChain); the law joining them is QuantLaw, and
  the inputs are real by the precondition (Finite).
-/
import proofs.«112546_j17025250361715_1_alg».proof.Defs
import proofs.«112546_j17025250361715_1_alg».proof.Proof.Gen.Kernel
import proofs.«112546_j17025250361715_1_alg».proof.Proof.Gen.Kernel.Skeleton
import proofs.«112546_j17025250361715_1_alg».proof.Proof.Gen.Kernel.Launch
import proofs.«112546_j17025250361715_1_alg».proof.Proof.Gen.Kernel.Points
import proofs.«112546_j17025250361715_1_alg».proof.Proof.Gen.Kernel.Frame
import proofs.«112546_j17025250361715_1_alg».proof.Proof.Gen.KernelIdeal
import proofs.«112546_j17025250361715_1_alg».proof.Proof.Gen.KernelIdeal.Skeleton
import proofs.«112546_j17025250361715_1_alg».proof.Proof.Gen.KernelIdeal.Launch
import proofs.«112546_j17025250361715_1_alg».proof.Proof.Gen.KernelIdeal.Points
import proofs.«112546_j17025250361715_1_alg».proof.Proof.Gen.KernelIdeal.Frame
import proofs.«112546_j17025250361715_1_alg».proof.Proof.Gen.ReferenceIdeal
import proofs.«112546_j17025250361715_1_alg».proof.Proof.Gen.Pre_finite_inputs
import proofs.«112546_j17025250361715_1_alg».proof.Proof.Gen.ReferenceIdeal.Run
import proofs.«112546_j17025250361715_1_alg».proof.Proof.Gen.ReferenceIdeal.Read
import proofs.«112546_j17025250361715_1_alg».proof.Proof.QuantLaw
import proofs.«112546_j17025250361715_1_alg».proof.Proof.KRun
import proofs.«112546_j17025250361715_1_alg».proof.Proof.KValue
import proofs.«112546_j17025250361715_1_alg».proof.Proof.RefChain
import proofs.«112546_j17025250361715_1_alg».proof.Proof.Finite
import Idealize.ShloMosaic.Adequacy
import Idealize.ShloMosaic.Init
import Idealize.ShloMosaic.Lib.ValueIdx

noncomputable section

namespace Cert.Proof

open Idealize.ShloMosaic Idealize.ShloMosaic.TcCoe Idealize.SL.Sem Idealize.ShloMosaic.ValueIdx Cert.QuantLaw

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end with the result at one array: entry (b, s, o) is the layer's output entry of token (b, s) and output
    feature o, in the kernel's spelling on one side and the reference's on the other, equal on real inputs. -/
theorem algebraic : Cert.algebraic_KernelIdeal_ReferenceIdeal := by
  intro m ρ m' ρ' hpre hagree
  refine ⟨fun c => Cert.KernelIdeal.Gen.W4 (F := Ideal) m ρ c (Proc.devRef .tc Cert.KernelIdeal.main_v3),
    Cert.KernelIdeal.RunValue.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v94_eq, (hagree c).1, (hagree c).2.1, (hagree c).2.2.1, (hagree c).2.2.2]
  obtain ⟨h0, h1, h2, h3⟩ := Cert.Finite.real_of_pre m hpre c
  funext i
  obtain ⟨b, s, o, rfl⟩ : ∃ (b : Fin 4) (s o : Fin 2048), i = ix3 b s o := ⟨i 0, i 1, i 2, eq_ix3 i⟩
  refine (Cert.RefChain.ref_value _ _ _ _ b s o).trans ?_
  refine (outEste_eq_outE _ _ _ _ (fun t => h0 _) (fun j t => h1 _) (fun j t => h2 _) (fun j => h3 _)).trans ?_
  exact (Cert.KValue.result_value m ρ c b s o).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
